-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2048x4096 : Shape := ⟨3, ![1, 2048, 4096]⟩
abbrev S22016x4096 : Shape := ⟨2, ![22016, 4096]⟩
abbrev S22016x32 : Shape := ⟨2, ![22016, 32]⟩
abbrev S4096x11008 : Shape := ⟨2, ![4096, 11008]⟩
abbrev S4096x86 : Shape := ⟨2, ![4096, 86]⟩
abbrev S_ : Shape := ⟨0, ![]⟩

class Facts : Prop where
  bcast_S_S1x2048x4096 : S_.BroadcastsInDim S1x2048x4096 (![] : Fin 0 → Fin S1x2048x4096.rank)
  reducesTo_S1x2048x4096_S_d0_1_2 : S1x2048x4096.ReducesTo [0, 1, 2] S_
  h_S_ : 0 < S_.numel
  bcast_S_S22016x32 : S_.BroadcastsInDim S22016x32 (![] : Fin 0 → Fin S22016x32.rank)
  reducesTo_S22016x32_S_d0_1 : S22016x32.ReducesTo [0, 1] S_
  bcast_S_S4096x86 : S_.BroadcastsInDim S4096x86 (![] : Fin 0 → Fin S4096x86.rank)
  reducesTo_S4096x86_S_d0_1 : S4096x86.ReducesTo [0, 1] S_

variable [Facts]

def fn {F : FTy → Type} [FloatOps F] (main_arg0 : FVec F S1x2048x4096 .f32) (main_arg1 : IVec S22016x4096 32) (main_arg2 : IVec S22016x32 32) (main_arg3 : FVec F S22016x32 .f32) (main_arg4 : IVec S4096x11008 32) (main_arg5 : IVec S4096x86 32) (main_arg6 : FVec F S4096x86 .f32) : IVec S_ 1 :=
  let main_v0 : FVec F S1x2048x4096 .f32 := Host.absf main_arg0
  let main_cst : FVec F S_ .f32 := constant S_ .f32 0x7F800000#32
  let main_v1 : FVec F S1x2048x4096 .f32 := broadcastInDim S1x2048x4096 ![] bcast_S_S1x2048x4096 main_cst
  let main_v2 : IVec S1x2048x4096 1 := cmpf .olt main_v0 main_v1
  let main_c : IVec S_ 1 := constantI S_ 1 1#1
  let main_v3 : IVec S_ 1 := (fun x v => Host.reduce IntOp.andi x v reducesTo_S1x2048x4096_S_d0_1_2 h_S_) main_v2 main_c
  let main_v4 : FVec F S22016x32 .f32 := Host.absf main_arg3
  let main_cst_0 : FVec F S_ .f32 := constant S_ .f32 0x7F800000#32
  let main_v5 : FVec F S22016x32 .f32 := broadcastInDim S22016x32 ![] bcast_S_S22016x32 main_cst_0
  let main_v6 : IVec S22016x32 1 := cmpf .olt main_v4 main_v5
  let main_c_1 : IVec S_ 1 := constantI S_ 1 1#1
  let main_v7 : IVec S_ 1 := (fun x v => Host.reduce IntOp.andi x v reducesTo_S22016x32_S_d0_1 h_S_) main_v6 main_c_1
  let main_v8 : IVec S_ 1 := andi main_v3 main_v7
  let main_v9 : FVec F S4096x86 .f32 := Host.absf main_arg6
  let main_cst_2 : FVec F S_ .f32 := constant S_ .f32 0x7F800000#32
  let main_v10 : FVec F S4096x86 .f32 := broadcastInDim S4096x86 ![] bcast_S_S4096x86 main_cst_2
  let main_v11 : IVec S4096x86 1 := cmpf .olt main_v9 main_v10
  let main_c_3 : IVec S_ 1 := constantI S_ 1 1#1
  let main_v12 : IVec S_ 1 := (fun x v => Host.reduce IntOp.andi x v reducesTo_S4096x86_S_d0_1 h_S_) main_v11 main_c_3
  let main_v13 : IVec S_ 1 := andi main_v8 main_v12
  main_v13
-- ==== Kernel.lean ====
abbrev S1x2048x4096 : Shape := ⟨3, ![1, 2048, 4096]⟩
abbrev S22016x4096 : Shape := ⟨2, ![22016, 4096]⟩
abbrev S22016x32 : Shape := ⟨2, ![22016, 32]⟩
abbrev S4096x11008 : Shape := ⟨2, ![4096, 11008]⟩
abbrev S4096x86 : Shape := ⟨2, ![4096, 86]⟩
abbrev S2048x4096 : Shape := ⟨2, ![2048, 4096]⟩
abbrev S2048x11008 : Shape := ⟨2, ![2048, 11008]⟩
abbrev S1024x4096 : Shape := ⟨2, ![1024, 4096]⟩
abbrev S128x4096 : Shape := ⟨2, ![128, 4096]⟩
abbrev S128x32 : Shape := ⟨2, ![128, 32]⟩
abbrev S1024x128 : Shape := ⟨2, ![1024, 128]⟩
abbrev S128x32x128 : Shape := ⟨3, ![128, 32, 128]⟩
abbrev S128x32x1 : Shape := ⟨3, ![128, 32, 1]⟩
abbrev S1024x11008 : Shape := ⟨2, ![1024, 11008]⟩
abbrev S128x11008 : Shape := ⟨2, ![128, 11008]⟩
abbrev S128x86 : Shape := ⟨2, ![128, 86]⟩
abbrev S128x86x128 : Shape := ⟨3, ![128, 86, 128]⟩
abbrev S128x86x1 : Shape := ⟨3, ![128, 86, 1]⟩

abbrev nBuf : Space → Nat
  | .hbm => 10
  | .vmem => 24
  | .smem => 0
  | _ => 0

abbrev bufTy : (tb : Table) → Fin (tcTables nBuf tb) → BufTy
  | .hbm, ⟨0, _⟩ => ⟨S1x2048x4096, .f32⟩
  | .hbm, ⟨1, _⟩ => ⟨S22016x4096, .i32⟩
  | .hbm, ⟨2, _⟩ => ⟨S22016x32, .i32⟩
  | .hbm, ⟨3, _⟩ => ⟨S22016x32, .f32⟩
  | .hbm, ⟨4, _⟩ => ⟨S4096x11008, .i32⟩
  | .hbm, ⟨5, _⟩ => ⟨S4096x86, .i32⟩
  | .hbm, ⟨6, _⟩ => ⟨S4096x86, .f32⟩
  | .hbm, ⟨7, _⟩ => ⟨S2048x4096, .f32⟩
  | .hbm, ⟨8, _⟩ => ⟨S2048x11008, .bf16⟩
  | .hbm, ⟨9, _⟩ => ⟨S2048x4096, .f32⟩
  | .local _ .vmem, ⟨0, _⟩ => ⟨S1024x4096, .f32⟩
  | .local _ .vmem, ⟨1, _⟩ => ⟨S128x4096, .i32⟩
  | .local _ .vmem, ⟨2, _⟩ => ⟨S128x4096, .i32⟩
  | .local _ .vmem, ⟨3, _⟩ => ⟨S128x4096, .i32⟩
  | .local _ .vmem, ⟨4, _⟩ => ⟨S128x4096, .i32⟩
  | .local _ .vmem, ⟨5, _⟩ => ⟨S128x32, .i32⟩
  | .local _ .vmem, ⟨6, _⟩ => ⟨S128x32, .i32⟩
  | .local _ .vmem, ⟨7, _⟩ => ⟨S128x32, .i32⟩
  | .local _ .vmem, ⟨8, _⟩ => ⟨S128x32, .i32⟩
  | .local _ .vmem, ⟨9, _⟩ => ⟨S128x32, .f32⟩
  | .local _ .vmem, ⟨10, _⟩ => ⟨S128x32, .f32⟩
  | .local _ .vmem, ⟨11, _⟩ => ⟨S128x32, .f32⟩
  | .local _ .vmem, ⟨12, _⟩ => ⟨S128x32, .f32⟩
  | .local _ .vmem, ⟨13, _⟩ => ⟨S1024x128, .bf16⟩
  | .local _ .vmem, ⟨14, _⟩ => ⟨S1024x128, .bf16⟩
  | .local _ .vmem, ⟨15, _⟩ => ⟨S1024x11008, .bf16⟩
  | .local _ .vmem, ⟨16, _⟩ => ⟨S128x11008, .i32⟩
  | .local _ .vmem, ⟨17, _⟩ => ⟨S128x11008, .i32⟩
  | .local _ .vmem, ⟨18, _⟩ => ⟨S128x86, .i32⟩
  | .local _ .vmem, ⟨19, _⟩ => ⟨S128x86, .i32⟩
  | .local _ .vmem, ⟨20, _⟩ => ⟨S128x86, .f32⟩
  | .local _ .vmem, ⟨21, _⟩ => ⟨S128x86, .f32⟩
  | .local _ .vmem, ⟨22, _⟩ => ⟨S1024x128, .f32⟩
  | .local _ .vmem, ⟨23, _⟩ => ⟨S1024x128, .f32⟩
  | _, _ => ⟨S1x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc1_stg0_0 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc1_sem0_0 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23

abbrev nD : Nat := 1
abbrev τ : Topo := Topo.v7x

variable {F : FTy → Type} [FloatOps F]

abbrev grid0 : Pipeline.Grid := ⟨2, ![2, 86], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c86_i32 : BitVec 32 := 86#32
  let v0 : BitVec 32 := Scalar.addi arg1 c86_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c86_i32 : BitVec 32 := 86#32
  let v0 : BitVec 32 := Scalar.addi arg1 c86_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c86_i32 : BitVec 32 := 86#32
  let v0 : BitVec 32 := Scalar.addi arg1 c86_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S128x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x32 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x32 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S128x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![2, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S1024x11008 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S128x11008 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S128x86 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S128x86 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  shapeCasts_S1x2048x4096_S2048x4096 : S1x2048x4096.ShapeCasts S2048x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  bitsLt_bf16_f32 : FTy.bits .bf16 < FTy.bits .f32
  inb_S128x4096_S128x4096_0_0 : ∀ a, (![0, 0] : Fin 2 → Nat) a + S128x4096.size a ≤ S128x4096.size a
  h_S128x4096 : 0 < S128x4096.numel
  inb_S128x32_S128x32_0_0 : ∀ a, (![0, 0] : Fin 2 → Nat) a + S128x32.size a ≤ S128x32.size a
  h_S128x32 : 0 < S128x32.numel
  shapeCasts_S128x4096_S128x32x128 : S128x4096.ShapeCasts S128x32x128
  shapeCasts_S128x32_S128x32x1 : S128x32.ShapeCasts S128x32x1
  broadcasts_S128x32x1_S128x32x128 : S128x32x1.Broadcasts S128x32x128
  shapeCasts_S128x32x128_S128x4096 : S128x32x128.ShapeCasts S128x4096
  inb_S1024x128_S1024x128_0_0 : ∀ a, (![0, 0] : Fin 2 → Nat) a + S1024x128.size a ≤ S1024x128.size a
  h_S1024x128 : 0 < S1024x128.numel
  packedbf16_S1024x128_S1024x128_0_0 : (Rect.unit (s := S1024x128) ![0, 0] S1024x128.size inb_S1024x128_S1024x128_0_0).PackedRows (EltTy.packing .bf16)
  inb_S1024x11008_S1024x11008_0_0 : ∀ a, (![0, 0] : Fin 2 → Nat) a + S1024x11008.size a ≤ S1024x11008.size a
  h_S1024x11008 : 0 < S1024x11008.numel
  shapeCasts_S1024x11008_S1024x11008 : S1024x11008.ShapeCasts S1024x11008
  inb_S128x11008_S128x11008_0_0 : ∀ a, (![0, 0] : Fin 2 → Nat) a + S128x11008.size a ≤ S128x11008.size a
  h_S128x11008 : 0 < S128x11008.numel
  inb_S128x86_S128x86_0_0 : ∀ a, (![0, 0] : Fin 2 → Nat) a + S128x86.size a ≤ S128x86.size a
  h_S128x86 : 0 < S128x86.numel
  shapeCasts_S128x11008_S128x86x128 : S128x11008.ShapeCasts S128x86x128
  shapeCasts_S128x86_S128x86x1 : S128x86.ShapeCasts S128x86x1
  broadcasts_S128x86x1_S128x86x128 : S128x86x1.Broadcasts S128x86x128
  shapeCasts_S128x86x128_S128x11008 : S128x86x128.ShapeCasts S128x11008
  dot_S1024x4096_S128x4096_S1024x128_1_1_0_0_n_n_wf : DotDims.WF S1024x4096 S128x4096 S1024x128 [1] [1] [0] [0] [] []
  dot_S1024x11008_S128x11008_S1024x128_1_1_0_0_n_n_wf : DotDims.WF S1024x11008 S128x11008 S1024x128 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S2048x4096.size a
  hwx0_0 : ∀ i : grid0.Coords, EltTy.bits .f32 = 32 ∨ (Rect.block (s := S2048x4096) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S22016x4096.size a
  hwx0_1 : ∀ i : grid0.Coords, EltTy.bits .i32 = 32 ∨ (Rect.block (s := S22016x4096) S128x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S22016x4096.size a
  hwx0_2 : ∀ i : grid0.Coords, EltTy.bits .i32 = 32 ∨ (Rect.block (s := S22016x4096) S128x4096.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x32.size a ≤ S22016x32.size a
  hwx0_3 : ∀ i : grid0.Coords, EltTy.bits .i32 = 32 ∨ (Rect.block (s := S22016x32) S128x32.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x32.size a ≤ S22016x32.size a
  hwx0_4 : ∀ i : grid0.Coords, EltTy.bits .i32 = 32 ∨ (Rect.block (s := S22016x32) S128x32.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x32.size a ≤ S22016x32.size a
  hwx0_5 : ∀ i : grid0.Coords, EltTy.bits .f32 = 32 ∨ (Rect.block (s := S22016x32) S128x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x32.size a ≤ S22016x32.size a
  hwx0_6 : ∀ i : grid0.Coords, EltTy.bits .f32 = 32 ∨ (Rect.block (s := S22016x32) S128x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x128.size a ≤ S2048x11008.size a
  hwx0_7 : ∀ i : grid0.Coords, EltTy.bits .bf16 = 32 ∨ (Rect.block (s := S2048x11008) S1024x128.size (cc0_transform_7 i) (hinb0_7 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x11008.size a ≤ S2048x11008.size a
  hwx1_0 : ∀ i : grid1.Coords, EltTy.bits .bf16 = 32 ∨ (Rect.block (s := S2048x11008) S1024x11008.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x11008.size a ≤ S4096x11008.size a
  hwx1_1 : ∀ i : grid1.Coords, EltTy.bits .i32 = 32 ∨ (Rect.block (s := S4096x11008) S128x11008.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x86.size a ≤ S4096x86.size a
  hwx1_2 : ∀ i : grid1.Coords, EltTy.bits .i32 = 32 ∨ (Rect.block (s := S4096x86) S128x86.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x86.size a ≤ S4096x86.size a
  hwx1_3 : ∀ i : grid1.Coords, EltTy.bits .f32 = 32 ∨ (Rect.block (s := S4096x86) S128x86.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x128.size a ≤ S2048x4096.size a
  hwx1_4 : ∀ i : grid1.Coords, EltTy.bits .f32 = 32 ∨ (Rect.block (s := S2048x4096) S1024x128.size (cc1_transform_4 i) (hinb1_4 i)).WholeWords (EltTy.packing .f32)

variable [Facts₀]

def dot_S1024x4096_S128x4096_S1024x128_1_1_0_0_n_n : DotDims S1024x4096 S128x4096 S1024x128 where
  lhsContracting := [1]
  rhsContracting := [1]
  lhsNonContracting := [0]
  rhsNonContracting := [0]
  lhsBatch := []
  rhsBatch := []
  wf := dot_S1024x4096_S128x4096_S1024x128_1_1_0_0_n_n_wf
def dot_S1024x11008_S128x11008_S1024x128_1_1_0_0_n_n : DotDims S1024x11008 S128x11008 S1024x128 where
  lhsContracting := [1]
  rhsContracting := [1]
  lhsNonContracting := [0]
  rhsNonContracting := [0]
  lhsBatch := []
  rhsBatch := []
  wf := dot_S1024x11008_S128x11008_S1024x128_1_1_0_0_n_n_wf

abbrev win0_0 : Pipeline.Window sig grid0 :=
  Pipeline.Window.ofSpec (Memref.whole main_v0) S1024x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S128x32.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S128x32.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg3) S128x32.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1024x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v1) S1024x11008.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x11008.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x86.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x86.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1024x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S1x2048x4096 : Shape := ⟨3, ![1, 2048, 4096]⟩
abbrev S22016x4096 : Shape := ⟨2, ![22016, 4096]⟩
abbrev S22016x32 : Shape := ⟨2, ![22016, 32]⟩
abbrev S4096x11008 : Shape := ⟨2, ![4096, 11008]⟩
abbrev S4096x86 : Shape := ⟨2, ![4096, 86]⟩
abbrev S2048x4096 : Shape := ⟨2, ![2048, 4096]⟩
abbrev S22016x32x128 : Shape := ⟨3, ![22016, 32, 128]⟩
abbrev S22016x32x1 : Shape := ⟨3, ![22016, 32, 1]⟩
abbrev S2048x22016 : Shape := ⟨2, ![2048, 22016]⟩
abbrev S2048x11008 : Shape := ⟨2, ![2048, 11008]⟩
abbrev S_ : Shape := ⟨0, ![]⟩
abbrev S4096x86x128 : Shape := ⟨3, ![4096, 86, 128]⟩
abbrev S4096x86x1 : Shape := ⟨3, ![4096, 86, 1]⟩

abbrev nBuf : Space → Nat
  | .hbm => 42
  | .vmem => 0
  | .smem => 0
  | _ => 0

abbrev bufTy : (tb : Table) → Fin (tcTables nBuf tb) → BufTy
  | .hbm, ⟨0, _⟩ => ⟨S1x2048x4096, .f32⟩
  | .hbm, ⟨1, _⟩ => ⟨S22016x4096, .i32⟩
  | .hbm, ⟨2, _⟩ => ⟨S22016x32, .i32⟩
  | .hbm, ⟨3, _⟩ => ⟨S22016x32, .f32⟩
  | .hbm, ⟨4, _⟩ => ⟨S4096x11008, .i32⟩
  | .hbm, ⟨5, _⟩ => ⟨S4096x86, .i32⟩
  | .hbm, ⟨6, _⟩ => ⟨S4096x86, .f32⟩
  | .hbm, ⟨7, _⟩ => ⟨S2048x4096, .f32⟩
  | .hbm, ⟨8, _⟩ => ⟨S22016x32x128, .i32⟩
  | .hbm, ⟨9, _⟩ => ⟨S22016x32x128, .f32⟩
  | .hbm, ⟨10, _⟩ => ⟨S22016x32x1, .i32⟩
  | .hbm, ⟨11, _⟩ => ⟨S22016x32x1, .f32⟩
  | .hbm, ⟨12, _⟩ => ⟨S22016x32x128, .f32⟩
  | .hbm, ⟨13, _⟩ => ⟨S22016x32x128, .f32⟩
  | .hbm, ⟨14, _⟩ => ⟨S22016x32x1, .f32⟩
  | .hbm, ⟨15, _⟩ => ⟨S22016x32x128, .f32⟩
  | .hbm, ⟨16, _⟩ => ⟨S22016x32x128, .f32⟩
  | .hbm, ⟨17, _⟩ => ⟨S22016x4096, .f32⟩
  | .hbm, ⟨18, _⟩ => ⟨S2048x22016, .f32⟩
  | .hbm, ⟨19, _⟩ => ⟨S2048x11008, .f32⟩
  | .hbm, ⟨20, _⟩ => ⟨S2048x11008, .f32⟩
  | .hbm, ⟨21, _⟩ => ⟨S2048x11008, .f32⟩
  | .hbm, ⟨22, _⟩ => ⟨S2048x11008, .f32⟩
  | .hbm, ⟨23, _⟩ => ⟨S_, .f32⟩
  | .hbm, ⟨24, _⟩ => ⟨S2048x11008, .f32⟩
  | .hbm, ⟨25, _⟩ => ⟨S2048x11008, .f32⟩
  | .hbm, ⟨26, _⟩ => ⟨S_, .f32⟩
  | .hbm, ⟨27, _⟩ => ⟨S2048x11008, .f32⟩
  | .hbm, ⟨28, _⟩ => ⟨S2048x11008, .f32⟩
  | .hbm, ⟨29, _⟩ => ⟨S2048x11008, .f32⟩
  | .hbm, ⟨30, _⟩ => ⟨S2048x11008, .f32⟩
  | .hbm, ⟨31, _⟩ => ⟨S4096x86x128, .i32⟩
  | .hbm, ⟨32, _⟩ => ⟨S4096x86x128, .f32⟩
  | .hbm, ⟨33, _⟩ => ⟨S4096x86x1, .i32⟩
  | .hbm, ⟨34, _⟩ => ⟨S4096x86x1, .f32⟩
  | .hbm, ⟨35, _⟩ => ⟨S4096x86x128, .f32⟩
  | .hbm, ⟨36, _⟩ => ⟨S4096x86x128, .f32⟩
  | .hbm, ⟨37, _⟩ => ⟨S4096x86x1, .f32⟩
  | .hbm, ⟨38, _⟩ => ⟨S4096x86x128, .f32⟩
  | .hbm, ⟨39, _⟩ => ⟨S4096x86x128, .f32⟩
  | .hbm, ⟨40, _⟩ => ⟨S4096x11008, .f32⟩
  | .hbm, ⟨41, _⟩ => ⟨S2048x4096, .f32⟩
  | _, _ => ⟨S1x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]

class Facts₀ : Prop where
  shapeCasts_S1x2048x4096_S2048x4096 : S1x2048x4096.ShapeCasts S2048x4096
  shapeCasts_S22016x4096_S22016x32x128 : S22016x4096.ShapeCasts S22016x32x128
  bcast_S22016x32_S22016x32x1_0_1 : S22016x32.BroadcastsInDim S22016x32x1 (![0, 1] : Fin 2 → Fin S22016x32x1.rank)
  bcast_S22016x32x1_S22016x32x128_0_1_2 : S22016x32x1.BroadcastsInDim S22016x32x128 (![0, 1, 2] : Fin 3 → Fin S22016x32x128.rank)
  shapeCasts_S22016x32x128_S22016x4096 : S22016x32x128.ShapeCasts S22016x4096
  slices_S2048x22016_S2048x11008_0_0 : S2048x22016.Slices ![0, 0] S2048x11008
  slices_S2048x22016_S2048x11008_0_11008 : S2048x22016.Slices ![0, 11008] S2048x11008
  bcast_S_S2048x11008 : S_.BroadcastsInDim S2048x11008 (![] : Fin 0 → Fin S2048x11008.rank)
  shapeCasts_S4096x11008_S4096x86x128 : S4096x11008.ShapeCasts S4096x86x128
  bcast_S4096x86_S4096x86x1_0_1 : S4096x86.BroadcastsInDim S4096x86x1 (![0, 1] : Fin 2 → Fin S4096x86x1.rank)
  bcast_S4096x86x1_S4096x86x128_0_1_2 : S4096x86x1.BroadcastsInDim S4096x86x128 (![0, 1, 2] : Fin 3 → Fin S4096x86x128.rank)
  shapeCasts_S4096x86x128_S4096x11008 : S4096x86x128.ShapeCasts S4096x11008
  dot_S2048x4096_S22016x4096_S2048x22016_1_1_0_0_n_n_wf : DotDims.WF S2048x4096 S22016x4096 S2048x22016 [1] [1] [0] [0] [] []
  dot_S2048x11008_S4096x11008_S2048x4096_1_1_0_0_n_n_wf : DotDims.WF S2048x11008 S4096x11008 S2048x4096 [1] [1] [0] [0] [] []

variable [Facts₀]

def dot_S2048x4096_S22016x4096_S2048x22016_1_1_0_0_n_n : DotDims S2048x4096 S22016x4096 S2048x22016 where
  lhsContracting := [1]
  rhsContracting := [1]
  lhsNonContracting := [0]
  rhsNonContracting := [0]
  lhsBatch := []
  rhsBatch := []
  wf := dot_S2048x4096_S22016x4096_S2048x22016_1_1_0_0_n_n_wf
def dot_S2048x11008_S4096x11008_S2048x4096_1_1_0_0_n_n : DotDims S2048x11008 S4096x11008 S2048x4096 where
  lhsContracting := [1]
  rhsContracting := [1]
  lhsNonContracting := [0]
  rhsNonContracting := [0]
  lhsBatch := []
  rhsBatch := []
  wf := dot_S2048x11008_S4096x11008_S2048x4096_1_1_0_0_n_n_wf

class Facts : Prop extends Facts₀ where

variable [Facts]
-- ==== Proof.KernelFrame.Base.lean ====
/-
  The two pallas_calls of the quantized MLP as pipelines, at any float instance: what each window's block is at a
  grid point, what each body leaves in its output window's buffer as a function of the input blocks there, and the
  proof data of both pipelines at the buffer contents `V` their region is entered from.

  Call 0 (grid 2 × 86: row tile i, column tile j) reads x rows [1024 i, 1024 i + 1024), the gate rows
  [128 j, 128 j + 128) and the up rows [128 (j + 86), …) of the packed weight, zero-point and scale tables, and
  writes the 1024 × 128 tile (i, j) of the hidden activation. The gate and the up window of each table read ONE
  array, so each holds half of that array's share; the x window holds all of x.
  Call 1 (grid 2 × 32) reads hidden rows [1024 i, …), rows [128 j, …) of the down tables, and writes tile (i, j)
  of the result.
-/
import proofs.«427878_j59425167507992_3_alg».proof.Proof.Gen.Kernel.Launch
import proofs.«427878_j59425167507992_3_alg».proof.Proof.Gen.Kernel.Skeleton
import proofs.«427878_j59425167507992_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (V : (c : Dev nD) → (b : Ref sig .tc) → Buf (Elt F) ((c : Thread nD τ).loc b))

/-! ## Call 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev rX0 : Rect S1024x4096 := Rect.unit (s := S1024x4096) ![0, 0] S1024x4096.size inb_S1024x4096_S1024x4096_0_0
abbrev rQ0 : Rect S128x4096 := Rect.unit (s := S128x4096) ![0, 0] S128x4096.size inb_S128x4096_S128x4096_0_0
abbrev rZ0 : Rect S128x32 := Rect.unit (s := S128x32) ![0, 0] S128x32.size inb_S128x32_S128x32_0_0
abbrev rO : Rect S1024x128 := Rect.unit (s := S1024x128) ![0, 0] S1024x128.size inb_S1024x128_S1024x128_0_0

/-- The hidden tile the body stores, from the seven input blocks (x; gate and up codes; gate and up zero points;
    gate and up scales): its one store as a piece. -/
def out0_7 (x0 : Vec F S1024x4096 .f32) (x1 x2 : Vec F S128x4096 .i32) (x3 x4 : Vec F S128x32 .i32) (x5 x6 : Vec F S128x32 .f32) :
    Vec F S1024x128 .bf16 :=
  View.canon [⟨rO, k0_pay1 (View.ld x0 rX0) (View.ld x1 rQ0) (View.ld x3 rZ0) (View.ld x5 rZ0) (View.ld x2 rQ0) (View.ld x4 rZ0) (View.ld x6 rZ0)⟩]

/-- The share of its array each input window holds: the gate window the left half and the up window the right half
    of the table both read; x whole. -/
def q0 : Fin 8 → PosShare TreeShare
  | ⟨0, _⟩ => fullShare
  | ⟨1, _⟩ => fullShare.left
  | ⟨2, _⟩ => fullShare.right
  | ⟨3, _⟩ => fullShare.left
  | ⟨4, _⟩ => fullShare.right
  | ⟨5, _⟩ => fullShare.left
  | ⟨6, _⟩ => fullShare.right
  | ⟨7, _⟩ => fullShare

/-- The proof data of pipeline 0 on core `c`: every input's buffer is left at its block, the output's at the hidden
    tile of the blocks; the invariant is the scoped rest and the generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q := q0
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t
    = out0_7 (iblk0 V c 0 t) (iblk0 V c 1 t) (iblk0 V c 2 t) (iblk0 V c 3 t) (iblk0 V c 4 t) (iblk0 V c 5 t) (iblk0 V c 6 t) := by
  dsimp only [dat0]

/-! ## Call 1 -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rH1 : Rect S1024x11008 := Rect.unit (s := S1024x11008) ![0, 0] S1024x11008.size inb_S1024x11008_S1024x11008_0_0
abbrev rQ1 : Rect S128x11008 := Rect.unit (s := S128x11008) ![0, 0] S128x11008.size inb_S128x11008_S128x11008_0_0
abbrev rZ1 : Rect S128x86 := Rect.unit (s := S128x86) ![0, 0] S128x86.size inb_S128x86_S128x86_0_0

/-- The result tile the body stores, from the four input blocks (hidden rows; down codes, zero points, scales). -/
def out1_4 (x0 : Vec F S1024x11008 .bf16) (x1 : Vec F S128x11008 .i32) (x2 : Vec F S128x86 .i32) (x3 : Vec F S128x86 .f32) :
    Vec F S1024x128 .f32 :=
  View.canon [⟨rO, k1_pay1 (View.ld x0 rH1) (View.ld x1 rQ1) (View.ld x2 rZ1) (View.ld x3 rZ1)⟩]

/-- The proof data of pipeline 1 on core `c`; every array is its own buffer, held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t
    = out1_4 (iblk1 V c 0 t) (iblk1 V c 1 t) (iblk1 V c 2 t) (iblk1 V c 3 t) := by
  dsimp only [dat1]

end Cert.Kernel.Frame

end
-- ==== Proof.KernelFrame.Body0.lean ====
/-
  Call 0's body at every grid point: handed the seven input blocks, it leaves them in place and stores the hidden tile.
-/
import proofs.«427878_j59425167507992_3_alg».proof.Proof.KernelFrame.Base

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer

An input window is never written by the body, so what it holds at a point is the block a fetch at that point would
bring: where the pipeline did not fetch (the x window, between changes of the row tile), the block index has not
moved and the block kept from the point before is this point's. -/

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

theorem before0_4 (c : Dev nD) (t : Fin cfg0.N) (d) : (dat0 V c).before 4 t d = iblk0 V c 4 t :=
  ((dat0 V c).before_in_eq_fetched 4 rfl (fun _ => rfl) (fun _ _ _ => rfl)
      (fun t => by rw [after0_4]; unfold Dat.blockOf iblk0; rw [A_eq0]; try rfl) t d).trans
    (by unfold Dat.fetched Dat.blockOf iblk0; rw [A_eq0]; try rfl)

theorem before0_5 (c : Dev nD) (t : Fin cfg0.N) (d) : (dat0 V c).before 5 t d = iblk0 V c 5 t :=
  ((dat0 V c).before_in_eq_fetched 5 rfl (fun _ => rfl) (fun _ _ _ => rfl)
      (fun t => by rw [after0_5]; unfold Dat.blockOf iblk0; rw [A_eq0]; try rfl) t d).trans
    (by unfold Dat.fetched Dat.blockOf iblk0; rw [A_eq0]; try rfl)

theorem before0_6 (c : Dev nD) (t : Fin cfg0.N) (d) : (dat0 V c).before 6 t d = iblk0 V c 6 t :=
  ((dat0 V c).before_in_eq_fetched 6 rfl (fun _ => rfl) (fun _ _ _ => rfl)
      (fun t => by rw [after0_6]; unfold Dat.blockOf iblk0; rw [A_eq0]; try rfl) t d).trans
    (by unfold Dat.fetched Dat.blockOf iblk0; rw [A_eq0]; try rfl)

/-! ## What the body leaves in the output window's buffer -/

/-- The one store is through the whole-buffer rectangle, so it covers the buffer. -/
theorem cover0_7 (p0 : Vec F S1024x128 .bf16) (y : S1024x128.Idx) :
    ∃ pc ∈ ([⟨rO, p0⟩] : List (View.Piece (Elt F) S1024x128 .bf16)), y ∈ pc.1.set :=
  View.cover_of_tiled [⟨rO, p0⟩] S1024x128.size (by rfl) y

/-! ## The body's triple -/

set_option maxHeartbeats 1000000 in
/-- The kernel on whole staging memrefs, the seven inputs' reading `x0 … x6` and the output's holding anything, runs
    to the continuation with the inputs' as they were and the output's at the hidden tile of `x0 … x6`: seven
    whole-buffer loads of the inputs, a whole-buffer load of the output whose value is not used, and one whole-buffer
    store of the payload over what was loaded. -/
theorem sound_kernel0 (c : Dev nD) (E : Set ℕ) (i : grid0.Coords)
    (arg0 : Memref sig .tc .vmem S1024x4096 .f32) (harg0 : arg0.IsWhole)
    (arg1 : Memref sig .tc .vmem S128x4096 .i32) (harg1 : arg1.IsWhole)
    (arg2 : Memref sig .tc .vmem S128x4096 .i32) (harg2 : arg2.IsWhole)
    (arg3 : Memref sig .tc .vmem S128x32 .i32) (harg3 : arg3.IsWhole)
    (arg4 : Memref sig .tc .vmem S128x32 .i32) (harg4 : arg4.IsWhole)
    (arg5 : Memref sig .tc .vmem S128x32 .f32) (harg5 : arg5.IsWhole)
    (arg6 : Memref sig .tc .vmem S128x32 .f32) (harg6 : arg6.IsWhole)
    (arg7 : Memref sig .tc .vmem S1024x128 .bf16) (harg7 : arg7.IsWhole)
    (x0 : Vec F S1024x4096 .f32) (x1 x2 : Vec F S128x4096 .i32) (x3 x4 : Vec F S128x32 .i32) (x5 x6 : Vec F S128x32 .f32)
    (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare (out0_7 x0 x1 x2 x3 x4 x5 x6)) -∗ K ⟨⟩))
      ⊢ wp frame (wpE (defs₀ (F := F)) Variants.none c none) E (cc0__gate_up_kernel i arg0 harg0 arg1 harg1 arg2 harg2 arg3 harg3 arg4 harg4 arg5 harg5 arg6 harg6 arg7 harg7) K := by
  simp only [cc0__gate_up_kernel_eq_skeleton]; unfold cc0__gate_up_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The body obligation, at a generic point -/

/-- What the body is called with at point `t`: the invariant, the core's debts, and each window's current staging
    buffer at what it then holds, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns: each buffer at what the body leaves there. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
/-- The body at any point: every input's buffer holds its block, so the body's triple applies at the seven blocks; the
    invariant and the core's debts do not depend on the point and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation of pipeline 0, at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.KernelFrame.Body1.lean ====
/-
  Call 1's body at every grid point: handed the four input blocks, it leaves them in place and stores the result tile.
-/
import proofs.«427878_j59425167507992_3_alg».proof.Proof.KernelFrame.Base

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each input window's buffer holds when the body is called

For proof data over the entry contents whose body leaves an input's block in place, the buffer the body is handed
holds that block at every point. Where the window was fetched at the point this is the fetch; where it was not (the
hidden rows, whose row tile is constant along a grid row), the block index is the previous point's, and so is the
block. None of these windows is cut and none is ever idle. -/

/-- The hidden activation's row tile `i`: fetched only where `i` changes, the same block along a grid row. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl)
    (fun t => by rw [hafter]; unfold Dat.blockOf iblk1; rw [hA]; try rfl) t d).trans
    (by unfold Dat.fetched Dat.blockOf iblk1; rw [hA]; try rfl)

/-- The down codes' row tile `j`: fetched at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl)
    (fun t => by rw [hafter]; unfold Dat.blockOf iblk1; rw [hA]; try rfl) t d).trans
    (by unfold Dat.fetched Dat.blockOf iblk1; rw [hA]; try rfl)

/-- The down zero points' row tile `j`. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl)
    (fun t => by rw [hafter]; unfold Dat.blockOf iblk1; rw [hA]; try rfl) t d).trans
    (by unfold Dat.fetched Dat.blockOf iblk1; rw [hA]; try rfl)

/-- The down scales' row tile `j`. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl)
    (fun t => by rw [hafter]; unfold Dat.blockOf iblk1; rw [hA]; try rfl) t d).trans
    (by unfold Dat.fetched Dat.blockOf iblk1; rw [hA]; try rfl)

/-! ## The result tile covers its buffer -/

/-- The body's one store is of the whole 1024 × 128 buffer, so every index of the buffer lies in it. -/
theorem cover1_4 (p : Vec F S1024x128 .f32) (y : S1024x128.Idx) :
    ∃ pc ∈ ([⟨rO, p⟩] : List (View.Piece (Elt F) S1024x128 .f32)), y ∈ pc.1.set :=
  View.cover_of_tiled [⟨rO, p⟩] S1024x128.size (by rfl) y

/-! ## The body's triple -/

set_option maxHeartbeats 1000000 in
/-- The body on whole buffers, the four inputs' at contents `x0 … x3` and the output's at anything: it reads the five
    buffers whole (the output's read is of whatever it holds, and nothing depends on it), stores the down
    projection of the four values read over the whole output buffer, and returns. The inputs are left as found;
    the output, read back through its one whole store, is `out1_4 x0 x1 x2 x3`. -/
theorem sound_kernel1 (c : Dev nD) (E : Set ℕ) (i : grid1.Coords)
    (arg2 : Memref sig .tc .vmem S1024x11008 .bf16) (harg2 : arg2.IsWhole)
    (arg3 : Memref sig .tc .vmem S128x11008 .i32) (harg3 : arg3.IsWhole)
    (arg4 : Memref sig .tc .vmem S128x86 .i32) (harg4 : arg4.IsWhole)
    (arg5 : Memref sig .tc .vmem S128x86 .f32) (harg5 : arg5.IsWhole)
    (arg6 : Memref sig .tc .vmem S1024x128 .f32) (harg6 : arg6.IsWhole)
    (x0 : Vec F S1024x11008 .bf16) (x1 : Vec F S128x11008 .i32) (x2 : Vec F S128x86 .i32) (x3 : Vec F S128x86 .f32)
    (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out1_4 x0 x1 x2 x3)) -∗ K ⟨⟩))
      ⊢ wp frame (wpE (defs₀ (F := F)) Variants.none c none) E
          (cc1__down_kernel i arg2 harg2 arg3 harg3 arg4 harg4 arg5 harg5 arg6 harg6) K := by
  simp only [cc1__down_kernel_eq_skeleton]; unfold cc1__down_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The inputs at their blocks -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`: the invariant, the core's debt, and the five current buffers, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: each input's buffer holds its block, so the body's triple applies at the four blocks;
    the invariant and the core's debt do not depend on the point and pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation of pipeline 1, at every point. -/
theorem body_obligation1 (c : Dev nD) : BodyObligation (dat1 (F := F) V c) (defs₀ (F := F)) Variants.none () Set.univ := fun t => by
  rw [bigSep_W1, bigSep_W1]
  exact sound_body1 V c t

end Cert.Kernel.Frame

end
-- ==== Proof.KernelFrame.Shares0.lean ====
/-
  Call 0's arrays among the core's unscoped buffers when two windows read one array: each packed table's full share
  is dealt to its gate window (left half) and its up window (right half) at the region's entry and joined again at its exit.
-/
import proofs.«427878_j59425167507992_3_alg».proof.Proof.KernelFrame.Base

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The five buffers and the eight windows, listed

Windows 0 … 7 read, in order, x, the packed codes (gate, up), the packed zero points (gate, up), the packed scales
(gate, up), and write the hidden activation: five distinct buffers, the three tables each behind two windows. -/

/-- The distinct buffers behind the windows' arrays, each whole at the full share, one by one. -/
theorem arrBufs0_eq (c : Dev nD) (V : (b : Ref sig .tc) → Buf (Elt F) ((c : Thread nD τ).loc b)) :
    (Pipeline.arrBufs spec0 c V : sProp 𝕄)
      = iprop((((c : Thread nD τ).loc main_v0) ↦{fullShare} V main_v0) ∗ (((c : Thread nD τ).loc main_arg1) ↦{fullShare} V main_arg1)
          ∗ (((c : Thread nD τ).loc main_arg2) ↦{fullShare} V main_arg2) ∗ (((c : Thread nD τ).loc main_arg3) ↦{fullShare} V main_arg3)
          ∗ (((c : Thread nD τ).loc main_v1) ↦{fullShare} V main_v1)) := by
  unfold Pipeline.arrBufs
  exact bigSep_eq_bigSepL_of_eq [main_v0, main_arg1, main_arg2, main_arg3, main_v1] (by decide) (by decide) _

/-- The share each window holds its array at under `q0`: the output window and x the full share, a table's gate
    window its left half and its up window its right half. -/
theorem share0_all (c : Dev nD) (dat : Dat τ (Elt F) Unit ℕ (UR sig nD τ) ℕ cfg0 c) (hq : dat.q = q0) :
    dat.share 0 = fullShare ∧ dat.share 1 = fullShare.left ∧ dat.share 2 = fullShare.right ∧ dat.share 3 = fullShare.left
      ∧ dat.share 4 = fullShare.right ∧ dat.share 5 = fullShare.left ∧ dat.share 6 = fullShare.right ∧ dat.share 7 = fullShare := by
  unfold Dat.share
  rw [hq]
  exact ⟨rfl, rfl, rfl, rfl, rfl, rfl, rfl, rfl⟩

/-- The pipeline's arrays at contents `A`, window by window: every array is a whole buffer, so its element set is
    all of the buffer, held at the window's share. (The two windows of a table have one array, hence one element
    set: rewriting the gate window's rewrites the up window's with it.) -/
theorem arrays0_eq (c : Dev nD) (dat : Dat τ (Elt F) Unit ℕ (UR sig nD τ) ℕ cfg0 c) (hq : dat.q = q0)
    (A : (w : Fin cfg0.W) → Buf (Elt F) ((cfg0.win w).arr.view.loc (c : Thread nD τ))) :
    (dat.arrays A : sProp 𝕄)
      = iprop((((c : Thread nD τ).loc main_v0) ↦{fullShare} A 0)
          ∗ (((c : Thread nD τ).loc main_arg1) ↦{fullShare.left} A 1) ∗ (((c : Thread nD τ).loc main_arg1) ↦{fullShare.right} A 2)
          ∗ (((c : Thread nD τ).loc main_arg2) ↦{fullShare.left} A 3) ∗ (((c : Thread nD τ).loc main_arg2) ↦{fullShare.right} A 4)
          ∗ (((c : Thread nD τ).loc main_arg3) ↦{fullShare.left} A 5) ∗ (((c : Thread nD τ).loc main_arg3) ↦{fullShare.right} A 6)
          ∗ (((c : Thread nD τ).loc main_v1) ↦{fullShare} A 7)) := by
  obtain ⟨h0, h1, h2, h3, h4, h5, h6, h7⟩ := share0_all c dat hq
  unfold Dat.arrays
  rw [bigSep_W0, (arr_whole0 0).set_eq_univ, (arr_whole0 1).set_eq_univ, (arr_whole0 3).set_eq_univ,
    (arr_whole0 5).set_eq_univ, (arr_whole0 7).set_eq_univ, h0, h1, h2, h3, h4, h5, h6, h7]

/-! ## Entry and exit -/

/-- ENTRY: a core's unscoped buffers at contents `Vc` are pipeline 0's arrays at the proof data's entry contents,
    each at its window's share, and the unscoped rest. -/
theorem arrays0_of_unscopedBufs (c : Dev nD) (dat : Dat τ (Elt F) Unit ℕ (UR sig nD τ) ℕ cfg0 c) (hq : dat.q = q0)
    (Vc : (b : Ref sig .tc) → Buf (Elt F) ((c : Thread nD τ).loc b)) (hA : ∀ w, dat.A w = Vc (Pipeline.arrRef spec0 w)) :
    (unscopedBufs c Vc : sProp 𝕄) ⊢ iprop(dat.arrays (dat.arrAt · 0) ∗ Pipeline.unscopedRest spec0 c Vc) := by
  -- the entry contents of window `w`'s array are `Vc` at the buffer behind it
  have hA0 : (dat.arrAt · 0) = fun w => Vc (Pipeline.arrRef spec0 w) := funext hA
  -- the unscoped buffers are the five buffers behind the arrays and the rest; the rest stays
  rw [Pipeline.unscopedBufs_split₀ cfgs 0 winFacts₀0.arr_unscoped c Vc]
  refine sep_mono ?_ .rfl
  rw [hA0, arrays0_eq c dat hq]
  refine (Entails.of_eq (arrBufs0_eq c Vc)).trans ?_
  iintro ⟨H0, H1, H2, H3, H7⟩
  -- each table's full share is its left half and its right half, both at the table's contents
  ihave H1' := (pointsTo_share (PosShare.mem_left_op_right fullShare)).1 $$ H1
  ihave H2' := (pointsTo_share (PosShare.mem_left_op_right fullShare)).1 $$ H2
  ihave H3' := (pointsTo_share (PosShare.mem_left_op_right fullShare)).1 $$ H3
  icases H1' with ⟨H1a, H1b⟩
  icases H2' with ⟨H2a, H2b⟩
  icases H3' with ⟨H3a, H3b⟩
  isplitl [H0]; · iexact H0
  isplitl [H1a]; · iexact H1a
  isplitl [H1b]; · iexact H1b
  isplitl [H2a]; · iexact H2a
  isplitl [H2b]; · iexact H2b
  isplitl [H3a]; · iexact H3a
  isplitl [H3b]; · iexact H3b
  iexact H7

/-- EXIT: pipeline 0's arrays at contents `A'` and the unscoped rest at `Vc` are the core's unscoped buffers at any
    valuation `Vc'` that has the arrays at `A'` and agrees with `Vc` off them. -/
theorem unscopedBufs_of_arrays0 (c : Dev nD) (dat : Dat τ (Elt F) Unit ℕ (UR sig nD τ) ℕ cfg0 c) (hq : dat.q = q0)
    (Vc Vc' : (b : Ref sig .tc) → Buf (Elt F) ((c : Thread nD τ).loc b))
    (A' : (w : Fin cfg0.W) → Buf (Elt F) ((cfg0.win w).arr.view.loc (c : Thread nD τ)))
    (hA' : ∀ w, A' w = Vc' (Pipeline.arrRef spec0 w))
    (hrest : ∀ b, b ∉ Finset.univ.image (Pipeline.arrRef spec0) → Vc' b = Vc b) :
    iprop(dat.arrays A' ∗ Pipeline.unscopedRest spec0 c Vc) ⊢ (unscopedBufs c Vc' : sProp 𝕄) := by
  -- window `w`'s array is at `Vc'` at the buffer behind it: the two windows of a table hold the same contents
  have hA0 : A' = fun w => Vc' (Pipeline.arrRef spec0 w) := funext hA'
  rw [Pipeline.unscopedBufs_split₀ cfgs 0 winFacts₀0.arr_unscoped c Vc']
  refine sep_mono ?_ (Entails.of_eq ?_)
  · rw [hA0, arrays0_eq c dat hq]
    refine BIBase.Entails.trans ?_ (Entails.of_eq (arrBufs0_eq c Vc').symm)
    iintro ⟨H0, H1a, H1b, H2a, H2b, H3a, H3b, H7⟩
    isplitl [H0]; · iexact H0
    -- a table's left half and right half, at the same contents, are its full share
    isplitl [H1a H1b]
    · iapply (pointsTo_share (PosShare.mem_left_op_right fullShare)).2
      isplitl [H1a]; · iexact H1a
      iexact H1b
    isplitl [H2a H2b]
    · iapply (pointsTo_share (PosShare.mem_left_op_right fullShare)).2
      isplitl [H2a]; · iexact H2a
      iexact H2b
    isplitl [H3a H3b]
    · iapply (pointsTo_share (PosShare.mem_left_op_right fullShare)).2
      isplitl [H3a]; · iexact H3a
      iexact H3b
    iexact H7
  · -- off the arrays the two valuations agree
    unfold Pipeline.unscopedRest
    exact bigSep_congr fun b hb => by rw [hrest b (Finset.mem_sdiff.mp hb).2]

end Cert.Kernel.Frame

end
-- ==== Proof.KernelFrame.Run.lean ====
/-
  The run of @main at any float instance: one host reshape of x, then call 0, then call 1, composed as three segments.
  Between segments the core holds every unscoped buffer at a valuation that is folded from the launch memory: the reshape's
  result after the host stretch; after call 0 the hidden array at what its write-backs leave and every other buffer as
  before; after call 1 the result array likewise. Every weakly fair execution terminates and the final memory holds every
  unscoped buffer at the last valuation — from which both the frame (no argument is ever written) and the value of the
  result array are read.
-/
import proofs.«427878_j59425167507992_3_alg».proof.Proof.KernelFrame.Body0
import proofs.«427878_j59425167507992_3_alg».proof.Proof.KernelFrame.Body1
import proofs.«427878_j59425167507992_3_alg».proof.Proof.KernelFrame.Shares0
import proofs.«427878_j59425167507992_3_alg».proof.Proof.Gen.Kernel.Regions

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => m (c, b)
/-- After the host reshape (call 0's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At call 0's exit: the hidden array at what the pipeline's write-backs leave, every other buffer as entered. -/
def W2 (c : Dev nD) : Valuation τ sig (Elt F) :=
  Function.update (W1 m c) (Proc.devRef .tc main_v1) ((dat0 (V1 m) c).arrAt 7 cfg0.N)
abbrev V2 : (c : Dev nD) → (b : Ref sig .tc) → Buf (Elt F) ((c : Thread nD τ).loc b) := fun c b => W2 m c b

theorem W2_main_v1 (c : Dev nD) : W2 m c (Proc.devRef .tc main_v1) = (dat0 (V1 m) c).arrAt 7 cfg0.N := by
  unfold W2; exact Function.update_self ..
theorem W2_of_ne (c : Dev nD) (b : Ref sig .tc) (hb : b ≠ main_v1) : W2 m c (Proc.devRef .tc b) = W1 m c (Proc.devRef .tc b) := by
  unfold W2; exact Function.update_of_ne (StableHlo.devRef_ne_of_ne hb) ..

/-- Call 0 writes no input array: an input window's array ends as entered. -/
theorem arrAt0_in (c : Dev nD) (w : Fin cfg0.W) (hw : (cfg0.win w).isOut = false) (n : Nat) :
    (dat0 (V1 m) c).arrAt w n = V1 m c (Pipeline.arrRef spec0 w) :=
  ((dat0 (V1 m) c).arrAt_in w hw n).trans (A_eq0 (V1 m) c w)

/-- At call 0's exit each of its arrays holds what the pipeline leaves, -/
theorem hF0 (c : Dev nD) (w : Fin cfg0.W) : (dat0 (V1 m) c).arrAt w cfg0.N = V2 m c (Pipeline.arrRef spec0 w) :=
  match w with
  | ⟨0, _⟩ => (arrAt0_in m c 0 rfl _).trans (W2_of_ne m c main_v0 (by decide)).symm
  | ⟨1, _⟩ => (arrAt0_in m c 1 rfl _).trans (W2_of_ne m c main_arg1 (by decide)).symm
  | ⟨2, _⟩ => (arrAt0_in m c 2 rfl _).trans (W2_of_ne m c main_arg1 (by decide)).symm
  | ⟨3, _⟩ => (arrAt0_in m c 3 rfl _).trans (W2_of_ne m c main_arg2 (by decide)).symm
  | ⟨4, _⟩ => (arrAt0_in m c 4 rfl _).trans (W2_of_ne m c main_arg2 (by decide)).symm
  | ⟨5, _⟩ => (arrAt0_in m c 5 rfl _).trans (W2_of_ne m c main_arg3 (by decide)).symm
  | ⟨6, _⟩ => (arrAt0_in m c 6 rfl _).trans (W2_of_ne m c main_arg3 (by decide)).symm
  | ⟨7, _⟩ => (W2_main_v1 m c).symm
/-- and every other buffer what it held at entry. -/
theorem hrest0 (c : Dev nD) : ∀ b, b ∉ Finset.univ.image (Pipeline.arrRef spec0) → V2 m c b = V1 m c b :=
  fun b hb => W2_of_ne m c b fun e => hb (Finset.mem_image.mpr ⟨7, Finset.mem_univ _, e.symm⟩)

/-- At call 1's exit: its arrays at what the pipeline leaves, every other buffer as entered. -/
def W4 (c : Dev nD) : Valuation τ sig (Elt F) :=
  Pipeline.withArrays spec1 c (W2 m c) fun w => (dat1 (V2 m) c).arrAt w cfg1.N
theorem W4_arr (c : Dev nD) (w : Fin cfg1.W) :
    W4 m c (Proc.devRef .tc (Pipeline.arrRef spec1 w)) = (dat1 (V2 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W2 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V2 m) c).arrAt w cfg1.N = V4 m c (Pipeline.arrRef spec1 w) :=
  (W4_arr m c w).symm
theorem hrest1 (c : Dev nD) : ∀ b, b ∉ Finset.univ.image (Pipeline.arrRef spec1) → V4 m c b = V2 m c b :=
  fun b hb => W4_of_ne m c b fun w e => hb (Finset.mem_image.mpr ⟨w, Finset.mem_univ _, e⟩)

/-- Call 1 writes no input array. -/
theorem arrAt1_in (c : Dev nD) (w : Fin cfg1.W) (hw : (cfg1.win w).isOut = false) (n : Nat) :
    (dat1 (V2 m) c).arrAt w n = V2 m c (Pipeline.arrRef spec1 w) :=
  ((dat1 (V2 m) c).arrAt_in w hw n).trans (A_eq1 (V2 m) c w)

/-! ### The arguments end as launched -/

/-- The host reshape writes only its result. -/
theorem W1_of (c : Dev nD) (r : Ref sig .tc) (h : r ∉ hostOps0_W) : W1 m c (Proc.devRef .tc r) = m ((c : Thread nD τ).loc r) :=
  V1_of m c r h

theorem W4_main_arg0 (c : Dev nD) : W4 m c (Proc.devRef .tc main_arg0) = m ((c : Thread nD τ).loc main_arg0) :=
  (W4_of_ne m c main_arg0 (by decide)).trans <| (W2_of_ne m c main_arg0 (by decide)).trans (W1_of m c main_arg0 (by decide))
theorem W4_main_arg1 (c : Dev nD) : W4 m c (Proc.devRef .tc main_arg1) = m ((c : Thread nD τ).loc main_arg1) :=
  (W4_of_ne m c main_arg1 (by decide)).trans <| (W2_of_ne m c main_arg1 (by decide)).trans (W1_of m c main_arg1 (by decide))
theorem W4_main_arg2 (c : Dev nD) : W4 m c (Proc.devRef .tc main_arg2) = m ((c : Thread nD τ).loc main_arg2) :=
  (W4_of_ne m c main_arg2 (by decide)).trans <| (W2_of_ne m c main_arg2 (by decide)).trans (W1_of m c main_arg2 (by decide))
theorem W4_main_arg3 (c : Dev nD) : W4 m c (Proc.devRef .tc main_arg3) = m ((c : Thread nD τ).loc main_arg3) :=
  (W4_of_ne m c main_arg3 (by decide)).trans <| (W2_of_ne m c main_arg3 (by decide)).trans (W1_of m c main_arg3 (by decide))
theorem W4_main_arg4 (c : Dev nD) : W4 m c (Proc.devRef .tc main_arg4) = m ((c : Thread nD τ).loc main_arg4) :=
  (W4_arr m c 1).trans <| (arrAt1_in m c 1 rfl _).trans <| (W2_of_ne m c main_arg4 (by decide)).trans (W1_of m c main_arg4 (by decide))
theorem W4_main_arg5 (c : Dev nD) : W4 m c (Proc.devRef .tc main_arg5) = m ((c : Thread nD τ).loc main_arg5) :=
  (W4_arr m c 2).trans <| (arrAt1_in m c 2 rfl _).trans <| (W2_of_ne m c main_arg5 (by decide)).trans (W1_of m c main_arg5 (by decide))
theorem W4_main_arg6 (c : Dev nD) : W4 m c (Proc.devRef .tc main_arg6) = m ((c : Thread nD τ).loc main_arg6) :=
  (W4_arr m c 3).trans <| (arrAt1_in m c 3 rfl _).trans <| (W2_of_ne m c main_arg6 (by decide)).trans (W1_of m c main_arg6 (by decide))

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- The host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Call 0 over the thread state: entered from every unscoped buffer at `W1`, left at `W2`. Its arrays are sorted out of the
    unscoped buffers with each packed table's share dealt to its two windows, and put back joined at the exit. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := arrays0_of_unscopedBufs (F := F) c (pdats m 0 c) rfl (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := unscopedBufs_of_arrays0 (F := F) c (pdats m 0 c) rfl
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered from every unscoped buffer at `W2`, left at `W4`; its arrays are distinct buffers. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order. -/
abbrev segs : List (Pipeline.Seg (pcfgs (F := F)) adm (pdats m) () defs₀ 𝒱₀ L lv) :=
  [ .host (hseg hostOps0 hostOps0_sub hostOps0_fresh (W0 m)),
    .region (reg0 m),
    .region (reg1 m) ]
/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and the
    final memory holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c)⟩) (run_all m ρ)

end Cert.Kernel.Frame

end
-- ==== Proof.KernelIdealFrame.Base.lean ====
/-
  The two pallas_calls of the quantized MLP as pipelines, at any float instance: what each window's block is at a
  grid point, what each body leaves in its output window's buffer as a function of the input blocks there, and the
  proof data of both pipelines at the buffer contents `V` their region is entered from.

  Call 0 (grid 2 × 86: row tile i, column tile j) reads x rows [1024 i, 1024 i + 1024), the gate rows
  [128 j, 128 j + 128) and the up rows [128 (j + 86), …) of the packed weight, zero-point and scale tables, and
  writes the 1024 × 128 tile (i, j) of the hidden activation. The gate and the up window of each table read ONE
  array, so each holds half of that array's share; the x window holds all of x.
  Call 1 (grid 2 × 32) reads hidden rows [1024 i, …), rows [128 j, …) of the down tables, and writes tile (i, j)
  of the result.
-/
import proofs.«427878_j59425167507992_3_alg».proof.Proof.Gen.KernelIdeal.Launch
import proofs.«427878_j59425167507992_3_alg».proof.Proof.Gen.KernelIdeal.Skeleton
import proofs.«427878_j59425167507992_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (V : (c : Dev nD) → (b : Ref sig .tc) → Buf (Elt F) ((c : Thread nD τ).loc b))

/-! ## Call 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev rX0 : Rect S1024x4096 := Rect.unit (s := S1024x4096) ![0, 0] S1024x4096.size inb_S1024x4096_S1024x4096_0_0
abbrev rQ0 : Rect S128x4096 := Rect.unit (s := S128x4096) ![0, 0] S128x4096.size inb_S128x4096_S128x4096_0_0
abbrev rZ0 : Rect S128x32 := Rect.unit (s := S128x32) ![0, 0] S128x32.size inb_S128x32_S128x32_0_0
abbrev rO : Rect S1024x128 := Rect.unit (s := S1024x128) ![0, 0] S1024x128.size inb_S1024x128_S1024x128_0_0

/-- The hidden tile the body stores, from the seven input blocks (x; gate and up codes; gate and up zero points;
    gate and up scales): its one store as a piece. -/
def out0_7 (x0 : Vec F S1024x4096 .f32) (x1 x2 : Vec F S128x4096 .i32) (x3 x4 : Vec F S128x32 .i32) (x5 x6 : Vec F S128x32 .f32) :
    Vec F S1024x128 .bf16 :=
  View.canon [⟨rO, k0_pay1 (View.ld x0 rX0) (View.ld x1 rQ0) (View.ld x3 rZ0) (View.ld x5 rZ0) (View.ld x2 rQ0) (View.ld x4 rZ0) (View.ld x6 rZ0)⟩]

/-- The share of its array each input window holds: the gate window the left half and the up window the right half
    of the table both read; x whole. -/
def q0 : Fin 8 → PosShare TreeShare
  | ⟨0, _⟩ => fullShare
  | ⟨1, _⟩ => fullShare.left
  | ⟨2, _⟩ => fullShare.right
  | ⟨3, _⟩ => fullShare.left
  | ⟨4, _⟩ => fullShare.right
  | ⟨5, _⟩ => fullShare.left
  | ⟨6, _⟩ => fullShare.right
  | ⟨7, _⟩ => fullShare

/-- The proof data of pipeline 0 on core `c`: every input's buffer is left at its block, the output's at the hidden
    tile of the blocks; the invariant is the scoped rest and the generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q := q0
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t
    = out0_7 (iblk0 V c 0 t) (iblk0 V c 1 t) (iblk0 V c 2 t) (iblk0 V c 3 t) (iblk0 V c 4 t) (iblk0 V c 5 t) (iblk0 V c 6 t) := by
  dsimp only [dat0]

/-! ## Call 1 -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rH1 : Rect S1024x11008 := Rect.unit (s := S1024x11008) ![0, 0] S1024x11008.size inb_S1024x11008_S1024x11008_0_0
abbrev rQ1 : Rect S128x11008 := Rect.unit (s := S128x11008) ![0, 0] S128x11008.size inb_S128x11008_S128x11008_0_0
abbrev rZ1 : Rect S128x86 := Rect.unit (s := S128x86) ![0, 0] S128x86.size inb_S128x86_S128x86_0_0

/-- The result tile the body stores, from the four input blocks (hidden rows; down codes, zero points, scales). -/
def out1_4 (x0 : Vec F S1024x11008 .bf16) (x1 : Vec F S128x11008 .i32) (x2 : Vec F S128x86 .i32) (x3 : Vec F S128x86 .f32) :
    Vec F S1024x128 .f32 :=
  View.canon [⟨rO, k1_pay1 (View.ld x0 rH1) (View.ld x1 rQ1) (View.ld x2 rZ1) (View.ld x3 rZ1)⟩]

/-- The proof data of pipeline 1 on core `c`; every array is its own buffer, held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t
    = out1_4 (iblk1 V c 0 t) (iblk1 V c 1 t) (iblk1 V c 2 t) (iblk1 V c 3 t) := by
  dsimp only [dat1]

end Cert.KernelIdeal.Frame

end
-- ==== Proof.KernelIdealFrame.Body0.lean ====
/-
  Call 0's body at every grid point: handed the seven input blocks, it leaves them in place and stores the hidden tile.
-/
import proofs.«427878_j59425167507992_3_alg».proof.Proof.KernelIdealFrame.Base

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer

An input window is never written by the body, so what it holds at a point is the block a fetch at that point would
bring: where the pipeline did not fetch (the x window, between changes of the row tile), the block index has not
moved and the block kept from the point before is this point's. -/

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

theorem before0_4 (c : Dev nD) (t : Fin cfg0.N) (d) : (dat0 V c).before 4 t d = iblk0 V c 4 t :=
  ((dat0 V c).before_in_eq_fetched 4 rfl (fun _ => rfl) (fun _ _ _ => rfl)
      (fun t => by rw [after0_4]; unfold Dat.blockOf iblk0; rw [A_eq0]; try rfl) t d).trans
    (by unfold Dat.fetched Dat.blockOf iblk0; rw [A_eq0]; try rfl)

theorem before0_5 (c : Dev nD) (t : Fin cfg0.N) (d) : (dat0 V c).before 5 t d = iblk0 V c 5 t :=
  ((dat0 V c).before_in_eq_fetched 5 rfl (fun _ => rfl) (fun _ _ _ => rfl)
      (fun t => by rw [after0_5]; unfold Dat.blockOf iblk0; rw [A_eq0]; try rfl) t d).trans
    (by unfold Dat.fetched Dat.blockOf iblk0; rw [A_eq0]; try rfl)

theorem before0_6 (c : Dev nD) (t : Fin cfg0.N) (d) : (dat0 V c).before 6 t d = iblk0 V c 6 t :=
  ((dat0 V c).before_in_eq_fetched 6 rfl (fun _ => rfl) (fun _ _ _ => rfl)
      (fun t => by rw [after0_6]; unfold Dat.blockOf iblk0; rw [A_eq0]; try rfl) t d).trans
    (by unfold Dat.fetched Dat.blockOf iblk0; rw [A_eq0]; try rfl)

/-! ## What the body leaves in the output window's buffer -/

/-- The one store is through the whole-buffer rectangle, so it covers the buffer. -/
theorem cover0_7 (p0 : Vec F S1024x128 .bf16) (y : S1024x128.Idx) :
    ∃ pc ∈ ([⟨rO, p0⟩] : List (View.Piece (Elt F) S1024x128 .bf16)), y ∈ pc.1.set :=
  View.cover_of_tiled [⟨rO, p0⟩] S1024x128.size (by rfl) y

/-! ## The body's triple -/

set_option maxHeartbeats 1000000 in
/-- The kernel on whole staging memrefs, the seven inputs' reading `x0 … x6` and the output's holding anything, runs
    to the continuation with the inputs' as they were and the output's at the hidden tile of `x0 … x6`: seven
    whole-buffer loads of the inputs, a whole-buffer load of the output whose value is not used, and one whole-buffer
    store of the payload over what was loaded. -/
theorem sound_kernel0 (c : Dev nD) (E : Set ℕ) (i : grid0.Coords)
    (arg0 : Memref sig .tc .vmem S1024x4096 .f32) (harg0 : arg0.IsWhole)
    (arg1 : Memref sig .tc .vmem S128x4096 .i32) (harg1 : arg1.IsWhole)
    (arg2 : Memref sig .tc .vmem S128x4096 .i32) (harg2 : arg2.IsWhole)
    (arg3 : Memref sig .tc .vmem S128x32 .i32) (harg3 : arg3.IsWhole)
    (arg4 : Memref sig .tc .vmem S128x32 .i32) (harg4 : arg4.IsWhole)
    (arg5 : Memref sig .tc .vmem S128x32 .f32) (harg5 : arg5.IsWhole)
    (arg6 : Memref sig .tc .vmem S128x32 .f32) (harg6 : arg6.IsWhole)
    (arg7 : Memref sig .tc .vmem S1024x128 .bf16) (harg7 : arg7.IsWhole)
    (x0 : Vec F S1024x4096 .f32) (x1 x2 : Vec F S128x4096 .i32) (x3 x4 : Vec F S128x32 .i32) (x5 x6 : Vec F S128x32 .f32)
    (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare (out0_7 x0 x1 x2 x3 x4 x5 x6)) -∗ K ⟨⟩))
      ⊢ wp frame (wpE (defs₀ (F := F)) Variants.none c none) E (cc0__gate_up_kernel i arg0 harg0 arg1 harg1 arg2 harg2 arg3 harg3 arg4 harg4 arg5 harg5 arg6 harg6 arg7 harg7) K := by
  simp only [cc0__gate_up_kernel_eq_skeleton]; unfold cc0__gate_up_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The body obligation, at a generic point -/

/-- What the body is called with at point `t`: the invariant, the core's debts, and each window's current staging
    buffer at what it then holds, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns: each buffer at what the body leaves there. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
/-- The body at any point: every input's buffer holds its block, so the body's triple applies at the seven blocks; the
    invariant and the core's debts do not depend on the point and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation of pipeline 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.KernelIdealFrame.Body1.lean ====
/-
  Call 1's body at every grid point: handed the four input blocks, it leaves them in place and stores the result tile.
-/
import proofs.«427878_j59425167507992_3_alg».proof.Proof.KernelIdealFrame.Base

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each input window's buffer holds when the body is called

For proof data over the entry contents whose body leaves an input's block in place, the buffer the body is handed
holds that block at every point. Where the window was fetched at the point this is the fetch; where it was not (the
hidden rows, whose row tile is constant along a grid row), the block index is the previous point's, and so is the
block. None of these windows is cut and none is ever idle. -/

/-- The hidden activation's row tile `i`: fetched only where `i` changes, the same block along a grid row. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl)
    (fun t => by rw [hafter]; unfold Dat.blockOf iblk1; rw [hA]; try rfl) t d).trans
    (by unfold Dat.fetched Dat.blockOf iblk1; rw [hA]; try rfl)

/-- The down codes' row tile `j`: fetched at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl)
    (fun t => by rw [hafter]; unfold Dat.blockOf iblk1; rw [hA]; try rfl) t d).trans
    (by unfold Dat.fetched Dat.blockOf iblk1; rw [hA]; try rfl)

/-- The down zero points' row tile `j`. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl)
    (fun t => by rw [hafter]; unfold Dat.blockOf iblk1; rw [hA]; try rfl) t d).trans
    (by unfold Dat.fetched Dat.blockOf iblk1; rw [hA]; try rfl)

/-- The down scales' row tile `j`. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl)
    (fun t => by rw [hafter]; unfold Dat.blockOf iblk1; rw [hA]; try rfl) t d).trans
    (by unfold Dat.fetched Dat.blockOf iblk1; rw [hA]; try rfl)

/-! ## The result tile covers its buffer -/

/-- The body's one store is of the whole 1024 × 128 buffer, so every index of the buffer lies in it. -/
theorem cover1_4 (p : Vec F S1024x128 .f32) (y : S1024x128.Idx) :
    ∃ pc ∈ ([⟨rO, p⟩] : List (View.Piece (Elt F) S1024x128 .f32)), y ∈ pc.1.set :=
  View.cover_of_tiled [⟨rO, p⟩] S1024x128.size (by rfl) y

/-! ## The body's triple -/

set_option maxHeartbeats 1000000 in
/-- The body on whole buffers, the four inputs' at contents `x0 … x3` and the output's at anything: it reads the five
    buffers whole (the output's read is of whatever it holds, and nothing depends on it), stores the down
    projection of the four values read over the whole output buffer, and returns. The inputs are left as found;
    the output, read back through its one whole store, is `out1_4 x0 x1 x2 x3`. -/
theorem sound_kernel1 (c : Dev nD) (E : Set ℕ) (i : grid1.Coords)
    (arg2 : Memref sig .tc .vmem S1024x11008 .bf16) (harg2 : arg2.IsWhole)
    (arg3 : Memref sig .tc .vmem S128x11008 .i32) (harg3 : arg3.IsWhole)
    (arg4 : Memref sig .tc .vmem S128x86 .i32) (harg4 : arg4.IsWhole)
    (arg5 : Memref sig .tc .vmem S128x86 .f32) (harg5 : arg5.IsWhole)
    (arg6 : Memref sig .tc .vmem S1024x128 .f32) (harg6 : arg6.IsWhole)
    (x0 : Vec F S1024x11008 .bf16) (x1 : Vec F S128x11008 .i32) (x2 : Vec F S128x86 .i32) (x3 : Vec F S128x86 .f32)
    (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out1_4 x0 x1 x2 x3)) -∗ K ⟨⟩))
      ⊢ wp frame (wpE (defs₀ (F := F)) Variants.none c none) E
          (cc1__down_kernel i arg2 harg2 arg3 harg3 arg4 harg4 arg5 harg5 arg6 harg6) K := by
  simp only [cc1__down_kernel_eq_skeleton]; unfold cc1__down_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The inputs at their blocks -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`: the invariant, the core's debt, and the five current buffers, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: each input's buffer holds its block, so the body's triple applies at the four blocks;
    the invariant and the core's debt do not depend on the point and pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation of pipeline 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.KernelIdealFrame.Shares0.lean ====
/-
  Call 0's arrays among the core's unscoped buffers when two windows read one array: each packed table's full share
  is dealt to its gate window (left half) and its up window (right half) at the region's entry and joined again at its exit.
-/
import proofs.«427878_j59425167507992_3_alg».proof.Proof.KernelIdealFrame.Base

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The five buffers and the eight windows, listed

Windows 0 … 7 read, in order, x, the packed codes (gate, up), the packed zero points (gate, up), the packed scales
(gate, up), and write the hidden activation: five distinct buffers, the three tables each behind two windows. -/

/-- The distinct buffers behind the windows' arrays, each whole at the full share, one by one. -/
theorem arrBufs0_eq (c : Dev nD) (V : (b : Ref sig .tc) → Buf (Elt F) ((c : Thread nD τ).loc b)) :
    (Pipeline.arrBufs spec0 c V : sProp 𝕄)
      = iprop((((c : Thread nD τ).loc main_v0) ↦{fullShare} V main_v0) ∗ (((c : Thread nD τ).loc main_arg1) ↦{fullShare} V main_arg1)
          ∗ (((c : Thread nD τ).loc main_arg2) ↦{fullShare} V main_arg2) ∗ (((c : Thread nD τ).loc main_arg3) ↦{fullShare} V main_arg3)
          ∗ (((c : Thread nD τ).loc main_v1) ↦{fullShare} V main_v1)) := by
  unfold Pipeline.arrBufs
  exact bigSep_eq_bigSepL_of_eq [main_v0, main_arg1, main_arg2, main_arg3, main_v1] (by decide) (by decide) _

/-- The share each window holds its array at under `q0`: the output window and x the full share, a table's gate
    window its left half and its up window its right half. -/
theorem share0_all (c : Dev nD) (dat : Dat τ (Elt F) Unit ℕ (UR sig nD τ) ℕ cfg0 c) (hq : dat.q = q0) :
    dat.share 0 = fullShare ∧ dat.share 1 = fullShare.left ∧ dat.share 2 = fullShare.right ∧ dat.share 3 = fullShare.left
      ∧ dat.share 4 = fullShare.right ∧ dat.share 5 = fullShare.left ∧ dat.share 6 = fullShare.right ∧ dat.share 7 = fullShare := by
  unfold Dat.share
  rw [hq]
  exact ⟨rfl, rfl, rfl, rfl, rfl, rfl, rfl, rfl⟩

/-- The pipeline's arrays at contents `A`, window by window: every array is a whole buffer, so its element set is
    all of the buffer, held at the window's share. (The two windows of a table have one array, hence one element
    set: rewriting the gate window's rewrites the up window's with it.) -/
theorem arrays0_eq (c : Dev nD) (dat : Dat τ (Elt F) Unit ℕ (UR sig nD τ) ℕ cfg0 c) (hq : dat.q = q0)
    (A : (w : Fin cfg0.W) → Buf (Elt F) ((cfg0.win w).arr.view.loc (c : Thread nD τ))) :
    (dat.arrays A : sProp 𝕄)
      = iprop((((c : Thread nD τ).loc main_v0) ↦{fullShare} A 0)
          ∗ (((c : Thread nD τ).loc main_arg1) ↦{fullShare.left} A 1) ∗ (((c : Thread nD τ).loc main_arg1) ↦{fullShare.right} A 2)
          ∗ (((c : Thread nD τ).loc main_arg2) ↦{fullShare.left} A 3) ∗ (((c : Thread nD τ).loc main_arg2) ↦{fullShare.right} A 4)
          ∗ (((c : Thread nD τ).loc main_arg3) ↦{fullShare.left} A 5) ∗ (((c : Thread nD τ).loc main_arg3) ↦{fullShare.right} A 6)
          ∗ (((c : Thread nD τ).loc main_v1) ↦{fullShare} A 7)) := by
  obtain ⟨h0, h1, h2, h3, h4, h5, h6, h7⟩ := share0_all c dat hq
  unfold Dat.arrays
  rw [bigSep_W0, (arr_whole0 0).set_eq_univ, (arr_whole0 1).set_eq_univ, (arr_whole0 3).set_eq_univ,
    (arr_whole0 5).set_eq_univ, (arr_whole0 7).set_eq_univ, h0, h1, h2, h3, h4, h5, h6, h7]

/-! ## Entry and exit -/

/-- ENTRY: a core's unscoped buffers at contents `Vc` are pipeline 0's arrays at the proof data's entry contents,
    each at its window's share, and the unscoped rest. -/
theorem arrays0_of_unscopedBufs (c : Dev nD) (dat : Dat τ (Elt F) Unit ℕ (UR sig nD τ) ℕ cfg0 c) (hq : dat.q = q0)
    (Vc : (b : Ref sig .tc) → Buf (Elt F) ((c : Thread nD τ).loc b)) (hA : ∀ w, dat.A w = Vc (Pipeline.arrRef spec0 w)) :
    (unscopedBufs c Vc : sProp 𝕄) ⊢ iprop(dat.arrays (dat.arrAt · 0) ∗ Pipeline.unscopedRest spec0 c Vc) := by
  -- the entry contents of window `w`'s array are `Vc` at the buffer behind it
  have hA0 : (dat.arrAt · 0) = fun w => Vc (Pipeline.arrRef spec0 w) := funext hA
  -- the unscoped buffers are the five buffers behind the arrays and the rest; the rest stays
  rw [Pipeline.unscopedBufs_split₀ cfgs 0 winFacts₀0.arr_unscoped c Vc]
  refine sep_mono ?_ .rfl
  rw [hA0, arrays0_eq c dat hq]
  refine (Entails.of_eq (arrBufs0_eq c Vc)).trans ?_
  iintro ⟨H0, H1, H2, H3, H7⟩
  -- each table's full share is its left half and its right half, both at the table's contents
  ihave H1' := (pointsTo_share (PosShare.mem_left_op_right fullShare)).1 $$ H1
  ihave H2' := (pointsTo_share (PosShare.mem_left_op_right fullShare)).1 $$ H2
  ihave H3' := (pointsTo_share (PosShare.mem_left_op_right fullShare)).1 $$ H3
  icases H1' with ⟨H1a, H1b⟩
  icases H2' with ⟨H2a, H2b⟩
  icases H3' with ⟨H3a, H3b⟩
  isplitl [H0]; · iexact H0
  isplitl [H1a]; · iexact H1a
  isplitl [H1b]; · iexact H1b
  isplitl [H2a]; · iexact H2a
  isplitl [H2b]; · iexact H2b
  isplitl [H3a]; · iexact H3a
  isplitl [H3b]; · iexact H3b
  iexact H7

/-- EXIT: pipeline 0's arrays at contents `A'` and the unscoped rest at `Vc` are the core's unscoped buffers at any
    valuation `Vc'` that has the arrays at `A'` and agrees with `Vc` off them. -/
theorem unscopedBufs_of_arrays0 (c : Dev nD) (dat : Dat τ (Elt F) Unit ℕ (UR sig nD τ) ℕ cfg0 c) (hq : dat.q = q0)
    (Vc Vc' : (b : Ref sig .tc) → Buf (Elt F) ((c : Thread nD τ).loc b))
    (A' : (w : Fin cfg0.W) → Buf (Elt F) ((cfg0.win w).arr.view.loc (c : Thread nD τ)))
    (hA' : ∀ w, A' w = Vc' (Pipeline.arrRef spec0 w))
    (hrest : ∀ b, b ∉ Finset.univ.image (Pipeline.arrRef spec0) → Vc' b = Vc b) :
    iprop(dat.arrays A' ∗ Pipeline.unscopedRest spec0 c Vc) ⊢ (unscopedBufs c Vc' : sProp 𝕄) := by
  -- window `w`'s array is at `Vc'` at the buffer behind it: the two windows of a table hold the same contents
  have hA0 : A' = fun w => Vc' (Pipeline.arrRef spec0 w) := funext hA'
  rw [Pipeline.unscopedBufs_split₀ cfgs 0 winFacts₀0.arr_unscoped c Vc']
  refine sep_mono ?_ (Entails.of_eq ?_)
  · rw [hA0, arrays0_eq c dat hq]
    refine BIBase.Entails.trans ?_ (Entails.of_eq (arrBufs0_eq c Vc').symm)
    iintro ⟨H0, H1a, H1b, H2a, H2b, H3a, H3b, H7⟩
    isplitl [H0]; · iexact H0
    -- a table's left half and right half, at the same contents, are its full share
    isplitl [H1a H1b]
    · iapply (pointsTo_share (PosShare.mem_left_op_right fullShare)).2
      isplitl [H1a]; · iexact H1a
      iexact H1b
    isplitl [H2a H2b]
    · iapply (pointsTo_share (PosShare.mem_left_op_right fullShare)).2
      isplitl [H2a]; · iexact H2a
      iexact H2b
    isplitl [H3a H3b]
    · iapply (pointsTo_share (PosShare.mem_left_op_right fullShare)).2
      isplitl [H3a]; · iexact H3a
      iexact H3b
    iexact H7
  · -- off the arrays the two valuations agree
    unfold Pipeline.unscopedRest
    exact bigSep_congr fun b hb => by rw [hrest b (Finset.mem_sdiff.mp hb).2]

end Cert.KernelIdeal.Frame

end
-- ==== Proof.KernelIdealFrame.Run.lean ====
/-
  The run of @main at any float instance: one host reshape of x, then call 0, then call 1, composed as three segments.
  Between segments the core holds every unscoped buffer at a valuation that is folded from the launch memory: the reshape's
  result after the host stretch; after call 0 the hidden array at what its write-backs leave and every other buffer as
  before; after call 1 the result array likewise. Every weakly fair execution terminates and the final memory holds every
  unscoped buffer at the last valuation — from which both the frame (no argument is ever written) and the value of the
  result array are read.
-/
import proofs.«427878_j59425167507992_3_alg».proof.Proof.KernelIdealFrame.Body0
import proofs.«427878_j59425167507992_3_alg».proof.Proof.KernelIdealFrame.Body1
import proofs.«427878_j59425167507992_3_alg».proof.Proof.KernelIdealFrame.Shares0
import proofs.«427878_j59425167507992_3_alg».proof.Proof.Gen.KernelIdeal.Regions

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => m (c, b)
/-- After the host reshape (call 0's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At call 0's exit: the hidden array at what the pipeline's write-backs leave, every other buffer as entered. -/
def W2 (c : Dev nD) : Valuation τ sig (Elt F) :=
  Function.update (W1 m c) (Proc.devRef .tc main_v1) ((dat0 (V1 m) c).arrAt 7 cfg0.N)
abbrev V2 : (c : Dev nD) → (b : Ref sig .tc) → Buf (Elt F) ((c : Thread nD τ).loc b) := fun c b => W2 m c b

theorem W2_main_v1 (c : Dev nD) : W2 m c (Proc.devRef .tc main_v1) = (dat0 (V1 m) c).arrAt 7 cfg0.N := by
  unfold W2; exact Function.update_self ..
theorem W2_of_ne (c : Dev nD) (b : Ref sig .tc) (hb : b ≠ main_v1) : W2 m c (Proc.devRef .tc b) = W1 m c (Proc.devRef .tc b) := by
  unfold W2; exact Function.update_of_ne (StableHlo.devRef_ne_of_ne hb) ..

/-- Call 0 writes no input array: an input window's array ends as entered. -/
theorem arrAt0_in (c : Dev nD) (w : Fin cfg0.W) (hw : (cfg0.win w).isOut = false) (n : Nat) :
    (dat0 (V1 m) c).arrAt w n = V1 m c (Pipeline.arrRef spec0 w) :=
  ((dat0 (V1 m) c).arrAt_in w hw n).trans (A_eq0 (V1 m) c w)

/-- At call 0's exit each of its arrays holds what the pipeline leaves, -/
theorem hF0 (c : Dev nD) (w : Fin cfg0.W) : (dat0 (V1 m) c).arrAt w cfg0.N = V2 m c (Pipeline.arrRef spec0 w) :=
  match w with
  | ⟨0, _⟩ => (arrAt0_in m c 0 rfl _).trans (W2_of_ne m c main_v0 (by decide)).symm
  | ⟨1, _⟩ => (arrAt0_in m c 1 rfl _).trans (W2_of_ne m c main_arg1 (by decide)).symm
  | ⟨2, _⟩ => (arrAt0_in m c 2 rfl _).trans (W2_of_ne m c main_arg1 (by decide)).symm
  | ⟨3, _⟩ => (arrAt0_in m c 3 rfl _).trans (W2_of_ne m c main_arg2 (by decide)).symm
  | ⟨4, _⟩ => (arrAt0_in m c 4 rfl _).trans (W2_of_ne m c main_arg2 (by decide)).symm
  | ⟨5, _⟩ => (arrAt0_in m c 5 rfl _).trans (W2_of_ne m c main_arg3 (by decide)).symm
  | ⟨6, _⟩ => (arrAt0_in m c 6 rfl _).trans (W2_of_ne m c main_arg3 (by decide)).symm
  | ⟨7, _⟩ => (W2_main_v1 m c).symm
/-- and every other buffer what it held at entry. -/
theorem hrest0 (c : Dev nD) : ∀ b, b ∉ Finset.univ.image (Pipeline.arrRef spec0) → V2 m c b = V1 m c b :=
  fun b hb => W2_of_ne m c b fun e => hb (Finset.mem_image.mpr ⟨7, Finset.mem_univ _, e.symm⟩)

/-- At call 1's exit: its arrays at what the pipeline leaves, every other buffer as entered. -/
def W4 (c : Dev nD) : Valuation τ sig (Elt F) :=
  Pipeline.withArrays spec1 c (W2 m c) fun w => (dat1 (V2 m) c).arrAt w cfg1.N
theorem W4_arr (c : Dev nD) (w : Fin cfg1.W) :
    W4 m c (Proc.devRef .tc (Pipeline.arrRef spec1 w)) = (dat1 (V2 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W2 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V2 m) c).arrAt w cfg1.N = V4 m c (Pipeline.arrRef spec1 w) :=
  (W4_arr m c w).symm
theorem hrest1 (c : Dev nD) : ∀ b, b ∉ Finset.univ.image (Pipeline.arrRef spec1) → V4 m c b = V2 m c b :=
  fun b hb => W4_of_ne m c b fun w e => hb (Finset.mem_image.mpr ⟨w, Finset.mem_univ _, e⟩)

/-- Call 1 writes no input array. -/
theorem arrAt1_in (c : Dev nD) (w : Fin cfg1.W) (hw : (cfg1.win w).isOut = false) (n : Nat) :
    (dat1 (V2 m) c).arrAt w n = V2 m c (Pipeline.arrRef spec1 w) :=
  ((dat1 (V2 m) c).arrAt_in w hw n).trans (A_eq1 (V2 m) c w)

/-! ### The arguments end as launched -/

/-- The host reshape writes only its result. -/
theorem W1_of (c : Dev nD) (r : Ref sig .tc) (h : r ∉ hostOps0_W) : W1 m c (Proc.devRef .tc r) = m ((c : Thread nD τ).loc r) :=
  V1_of m c r h

theorem W4_main_arg0 (c : Dev nD) : W4 m c (Proc.devRef .tc main_arg0) = m ((c : Thread nD τ).loc main_arg0) :=
  (W4_of_ne m c main_arg0 (by decide)).trans <| (W2_of_ne m c main_arg0 (by decide)).trans (W1_of m c main_arg0 (by decide))
theorem W4_main_arg1 (c : Dev nD) : W4 m c (Proc.devRef .tc main_arg1) = m ((c : Thread nD τ).loc main_arg1) :=
  (W4_of_ne m c main_arg1 (by decide)).trans <| (W2_of_ne m c main_arg1 (by decide)).trans (W1_of m c main_arg1 (by decide))
theorem W4_main_arg2 (c : Dev nD) : W4 m c (Proc.devRef .tc main_arg2) = m ((c : Thread nD τ).loc main_arg2) :=
  (W4_of_ne m c main_arg2 (by decide)).trans <| (W2_of_ne m c main_arg2 (by decide)).trans (W1_of m c main_arg2 (by decide))
theorem W4_main_arg3 (c : Dev nD) : W4 m c (Proc.devRef .tc main_arg3) = m ((c : Thread nD τ).loc main_arg3) :=
  (W4_of_ne m c main_arg3 (by decide)).trans <| (W2_of_ne m c main_arg3 (by decide)).trans (W1_of m c main_arg3 (by decide))
theorem W4_main_arg4 (c : Dev nD) : W4 m c (Proc.devRef .tc main_arg4) = m ((c : Thread nD τ).loc main_arg4) :=
  (W4_arr m c 1).trans <| (arrAt1_in m c 1 rfl _).trans <| (W2_of_ne m c main_arg4 (by decide)).trans (W1_of m c main_arg4 (by decide))
theorem W4_main_arg5 (c : Dev nD) : W4 m c (Proc.devRef .tc main_arg5) = m ((c : Thread nD τ).loc main_arg5) :=
  (W4_arr m c 2).trans <| (arrAt1_in m c 2 rfl _).trans <| (W2_of_ne m c main_arg5 (by decide)).trans (W1_of m c main_arg5 (by decide))
theorem W4_main_arg6 (c : Dev nD) : W4 m c (Proc.devRef .tc main_arg6) = m ((c : Thread nD τ).loc main_arg6) :=
  (W4_arr m c 3).trans <| (arrAt1_in m c 3 rfl _).trans <| (W2_of_ne m c main_arg6 (by decide)).trans (W1_of m c main_arg6 (by decide))

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- The host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Call 0 over the thread state: entered from every unscoped buffer at `W1`, left at `W2`. Its arrays are sorted out of the
    unscoped buffers with each packed table's share dealt to its two windows, and put back joined at the exit. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := arrays0_of_unscopedBufs (F := F) c (pdats m 0 c) rfl (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := unscopedBufs_of_arrays0 (F := F) c (pdats m 0 c) rfl
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered from every unscoped buffer at `W2`, left at `W4`; its arrays are distinct buffers. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order. -/
abbrev segs : List (Pipeline.Seg (pcfgs (F := F)) adm (pdats m) () defs₀ 𝒱₀ L lv) :=
  [ .host (hseg hostOps0 hostOps0_sub hostOps0_fresh (W0 m)),
    .region (reg0 m),
    .region (reg1 m) ]
/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and the
    final memory holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c)⟩) (run_all m ρ)

end Cert.KernelIdeal.Frame

end
-- ==== Proof.Value.Spec.lean ====
/-
  The quantized MLP as ONE function of its argument arrays, entry by entry, over the extended reals.

  A weight table stores 4-bit codes `q[o, d]` with one zero point `z[o, g]` and one scale `s[o, g]` per group
  `g = d / 128` of 128 consecutive input columns; the weight is `(q − z) · s`, the integer words read signed and
  exactly. With the gate rows `o < 11008` and the up rows `o + 11008` of the packed first table,

    hidden[r, o] = silu (Σ_d x[r, d] · w_gu[o, d]) · (Σ_d x[r, d] · w_gu[o + 11008, d]),   silu a = a · (1 / (1 + e^(−a))),
    result[r, n] = Σ_i hidden[r, i] · w_down[n, i].

  Both programs compute exactly these sums in this order of factors, so no law beyond the definitions joins them.
-/
import Idealize.ShloMosaic.Lib.ValueIdx
import Idealize.ShloMosaic.PureOps.Ideal

noncomputable section

open scoped BigOperators

namespace Cert.Spec

open Idealize.ShloMosaic Idealize.ShloMosaic.ValueIdx

/-- The group of an input column of the first projection (4096 columns, 32 groups of 128). -/
def g32 (d : Fin 4096) : Fin 32 := ⟨d.val / 128, by have := d.isLt; omega⟩
/-- The group of an input column of the down projection (11008 columns, 86 groups of 128). -/
def g86 (d : Fin 11008) : Fin 86 := ⟨d.val / 128, by have := d.isLt; omega⟩

/-- One dequantized weight: (code − zero point) · scale. -/
def deq (q z : BitVec 32) (s : EReal) : EReal := (((q.toInt : ℝ) : EReal) - ((z.toInt : ℝ) : EReal)) * s

/-- The packed gate-and-up weight at output row `o`, input column `d`. -/
def wgu (q : (⟨2, ![22016, 4096]⟩ : Shape).Idx → BitVec 32) (z : (⟨2, ![22016, 32]⟩ : Shape).Idx → BitVec 32)
    (s : (⟨2, ![22016, 32]⟩ : Shape).Idx → EReal) (o : Fin 22016) (d : Fin 4096) : EReal :=
  deq (q (ix2 o d)) (z (ix2 o (g32 d))) (s (ix2 o (g32 d)))

/-- The down weight at output row `n`, input column `i`. -/
def wdn (q : (⟨2, ![4096, 11008]⟩ : Shape).Idx → BitVec 32) (z : (⟨2, ![4096, 86]⟩ : Shape).Idx → BitVec 32)
    (s : (⟨2, ![4096, 86]⟩ : Shape).Idx → EReal) (n : Fin 4096) (i : Fin 11008) : EReal :=
  deq (q (ix2 n i)) (z (ix2 n (g86 i))) (s (ix2 n (g86 i)))

/-- Row `r` of x against row `o` of the packed first weight. -/
def proj (x : (⟨2, ![2048, 4096]⟩ : Shape).Idx → EReal) (q : (⟨2, ![22016, 4096]⟩ : Shape).Idx → BitVec 32)
    (z : (⟨2, ![22016, 32]⟩ : Shape).Idx → BitVec 32) (s : (⟨2, ![22016, 32]⟩ : Shape).Idx → EReal)
    (r : Fin 2048) (o : Fin 22016) : EReal :=
  ∑ d : Fin 4096, x (ix2 r d) * wgu q z s o d

/-- The gate row and the up row of hidden column `o`. -/
def gateRow (o : Fin 11008) : Fin 22016 := ⟨o.val, by have := o.isLt; omega⟩
def upRow (o : Fin 11008) : Fin 22016 := ⟨o.val + 11008, by have := o.isLt; omega⟩

/-- The hidden activation at row `r`, column `o`: silu of the gate projection times the up projection. -/
def hidAt (x : (⟨2, ![2048, 4096]⟩ : Shape).Idx → EReal) (q : (⟨2, ![22016, 4096]⟩ : Shape).Idx → BitVec 32)
    (z : (⟨2, ![22016, 32]⟩ : Shape).Idx → BitVec 32) (s : (⟨2, ![22016, 32]⟩ : Shape).Idx → EReal)
    (r : Fin 2048) (o : Fin 11008) : EReal :=
  (proj x q z s r (gateRow o) * Ideal.logistic (proj x q z s r (gateRow o))) * proj x q z s r (upRow o)

/-- The hidden activation as an array. -/
def hid (x : (⟨2, ![2048, 4096]⟩ : Shape).Idx → EReal) (q : (⟨2, ![22016, 4096]⟩ : Shape).Idx → BitVec 32)
    (z : (⟨2, ![22016, 32]⟩ : Shape).Idx → BitVec 32) (s : (⟨2, ![22016, 32]⟩ : Shape).Idx → EReal) :
    (⟨2, ![2048, 11008]⟩ : Shape).Idx → EReal :=
  fun j => hidAt x q z s (j 0) (j 1)

/-- The down projection of any hidden array at row `r`, output column `n`. -/
def downAt (h : (⟨2, ![2048, 11008]⟩ : Shape).Idx → EReal) (q : (⟨2, ![4096, 11008]⟩ : Shape).Idx → BitVec 32)
    (z : (⟨2, ![4096, 86]⟩ : Shape).Idx → BitVec 32) (s : (⟨2, ![4096, 86]⟩ : Shape).Idx → EReal)
    (r : Fin 2048) (n : Fin 4096) : EReal :=
  ∑ i : Fin 11008, h (ix2 r i) * wdn q z s n i

/-- The down projection as an array. -/
def down (h : (⟨2, ![2048, 11008]⟩ : Shape).Idx → EReal) (q : (⟨2, ![4096, 11008]⟩ : Shape).Idx → BitVec 32)
    (z : (⟨2, ![4096, 86]⟩ : Shape).Idx → BitVec 32) (s : (⟨2, ![4096, 86]⟩ : Shape).Idx → EReal) :
    (⟨2, ![2048, 4096]⟩ : Shape).Idx → EReal :=
  fun j => downAt h q z s (j 0) (j 1)

/-! ## One tile, as the kernels compute it from their blocks -/

/-- Row `r` of an x block against row `o` of a 128-row block of the packed first weight. -/
def tileProj (x : (⟨2, ![1024, 4096]⟩ : Shape).Idx → EReal) (q : (⟨2, ![128, 4096]⟩ : Shape).Idx → BitVec 32)
    (z : (⟨2, ![128, 32]⟩ : Shape).Idx → BitVec 32) (s : (⟨2, ![128, 32]⟩ : Shape).Idx → EReal)
    (r : Fin 1024) (o : Fin 128) : EReal :=
  ∑ d : Fin 4096, x (ix2 r d) * deq (q (ix2 o d)) (z (ix2 o (g32 d))) (s (ix2 o (g32 d)))

/-- The hidden tile from an x block and the gate and the up blocks of the three tables. -/
def tileHid (x : (⟨2, ![1024, 4096]⟩ : Shape).Idx → EReal)
    (gq : (⟨2, ![128, 4096]⟩ : Shape).Idx → BitVec 32) (gz : (⟨2, ![128, 32]⟩ : Shape).Idx → BitVec 32) (gs : (⟨2, ![128, 32]⟩ : Shape).Idx → EReal)
    (uq : (⟨2, ![128, 4096]⟩ : Shape).Idx → BitVec 32) (uz : (⟨2, ![128, 32]⟩ : Shape).Idx → BitVec 32) (us : (⟨2, ![128, 32]⟩ : Shape).Idx → EReal)
    (r : Fin 1024) (o : Fin 128) : EReal :=
  (tileProj x gq gz gs r o * Ideal.logistic (tileProj x gq gz gs r o)) * tileProj x uq uz us r o

/-- The result tile from a block of hidden rows and a 128-row block of the down tables. -/
def tileDown (h : (⟨2, ![1024, 11008]⟩ : Shape).Idx → EReal) (q : (⟨2, ![128, 11008]⟩ : Shape).Idx → BitVec 32)
    (z : (⟨2, ![128, 86]⟩ : Shape).Idx → BitVec 32) (s : (⟨2, ![128, 86]⟩ : Shape).Idx → EReal)
    (r : Fin 1024) (n : Fin 128) : EReal :=
  ∑ i : Fin 11008, h (ix2 r i) * deq (q (ix2 n i)) (z (ix2 n (g86 i))) (s (ix2 n (g86 i)))

end Cert.Spec

end
-- ==== Proof.Value.Pay0.lean ====
/-
  Call 0's stored value at an entry of its tile, over the extended reals: the two contractions of the x block with the
  dequantized gate and up blocks, silu of the first times the second.
-/
import proofs.«427878_j59425167507992_3_alg».proof.Proof.Gen.KernelIdeal.Skeleton
import proofs.«427878_j59425167507992_3_alg».proof.Proof.Value.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Val

open Idealize.ShloMosaic Idealize.ShloMosaic.ValueIdx
open Cert.KernelIdeal Cert.KernelIdeal.Gen

/-! ## The four layout operations of the dequantization, read at coordinates -/

section Layout
variable {α : Type}

/-- A [128, 4096] block viewed as [128, 32, 128] reads, at (o, g, l), the entry in row o and column d = 128·g + l. -/
theorem cast_groups_apply (v : (⟨2, ![128, 4096]⟩ : Shape).Idx → α)
    (h : (⟨2, ![128, 4096]⟩ : Shape).ShapeCasts ⟨3, ![128, 32, 128]⟩)
    (o : Fin 128) (g : Fin 32) (l : Fin 128) (d : Fin 4096) (hd : d.val = g.val * 128 + l.val) :
    shapeCast ⟨3, ![128, 32, 128]⟩ v h (ix3 o g l) = v (ix2 o d) :=
  shapeCast_apply v h _ _ (by
    rw [Shape.rowMajor_val_three, Shape.rowMajor_val_two]
    show o.val * 4096 + d.val = (o.val * 32 + g.val) * 128 + l.val
    omega)

/-- A [128, 32, 128] block viewed as [128, 4096] reads, at (o, d) with d = 128·g + l, the entry (o, g, l). -/
theorem cast_flat_apply (w : (⟨3, ![128, 32, 128]⟩ : Shape).Idx → α)
    (h : (⟨3, ![128, 32, 128]⟩ : Shape).ShapeCasts ⟨2, ![128, 4096]⟩)
    (o : Fin 128) (d : Fin 4096) (g : Fin 32) (l : Fin 128) (hd : d.val = g.val * 128 + l.val) :
    shapeCast ⟨2, ![128, 4096]⟩ w h (ix2 o d) = w (ix3 o g l) :=
  shapeCast_apply w h _ _ (by
    rw [Shape.rowMajor_val_three, Shape.rowMajor_val_two]
    show (o.val * 32 + g.val) * 128 + l.val = o.val * 4096 + d.val
    omega)

/-- A [128, 32] block viewed as [128, 32, 1] reads, at (o, g, u), the entry (o, g). -/
theorem cast_unit_apply (v : (⟨2, ![128, 32]⟩ : Shape).Idx → α)
    (h : (⟨2, ![128, 32]⟩ : Shape).ShapeCasts ⟨3, ![128, 32, 1]⟩) (o : Fin 128) (g : Fin 32) (u : Fin 1) :
    shapeCast ⟨3, ![128, 32, 1]⟩ v h (ix3 o g u) = v (ix2 o g) :=
  shapeCast_apply v h _ _ (by
    have hu : u.val = 0 := by omega
    rw [Shape.rowMajor_val_three, Shape.rowMajor_val_two]
    show o.val * 32 + g.val = (o.val * 32 + g.val) * 1 + u.val
    omega)

/-- A [128, 32, 1] block repeated 128 times along its last axis reads, at (o, g, l), the entry (o, g, 0). -/
theorem bcast_lane_apply (v : (⟨3, ![128, 32, 1]⟩ : Shape).Idx → α)
    (h : (⟨3, ![128, 32, 1]⟩ : Shape).Broadcasts ⟨3, ![128, 32, 128]⟩) (o : Fin 128) (g : Fin 32) (l : Fin 128) :
    broadcastTo ⟨3, ![128, 32, 128]⟩ v h (ix3 o g l) = v (ix3 o g (0 : Fin 1)) := by
  refine broadcastTo_apply v h (ix3 o g l) (ix3 o g (0 : Fin 1)) fun ax => ?_
  match ax with
  | ⟨0, _⟩ => rfl
  | ⟨1, _⟩ => rfl
  | ⟨2, _⟩ => rfl

end Layout

/-! ## One contraction: the x block against a block of weights, over the 4096 columns -/

/-- Row axis of the left operand: the output's row. -/
theorem lhs_contract_0 (i : S1024x128.Idx) (q : dot_S1024x4096_S128x4096_S1024x128_1_1_0_0_n_n.contr.Idx) :
    (dot_S1024x4096_S128x4096_S1024x128_1_1_0_0_n_n.lhsIdx i q 0).val = (i 0).val := by
  unfold DotDims.lhsIdx
  rw [dif_neg (show ¬(0 : Fin S1024x4096.rank) ∈ dot_S1024x4096_S128x4096_S1024x128_1_1_0_0_n_n.lhsBatch by decide), dif_pos (show (0 : Fin S1024x4096.rank) ∈ dot_S1024x4096_S128x4096_S1024x128_1_1_0_0_n_n.lhsNonContracting by decide)]
  rfl
/-- Column axis of the left operand: the contracted column. -/
theorem lhs_contract_1 (i : S1024x128.Idx) (q : dot_S1024x4096_S128x4096_S1024x128_1_1_0_0_n_n.contr.Idx) :
    (dot_S1024x4096_S128x4096_S1024x128_1_1_0_0_n_n.lhsIdx i q 1).val = (q ⟨0, by decide⟩).val :=
  dot_S1024x4096_S128x4096_S1024x128_1_1_0_0_n_n.lhsIdx_val_of_single rfl i q
/-- Row axis of the right operand: the output's column. -/
theorem rhs_contract_0 (i : S1024x128.Idx) (q : dot_S1024x4096_S128x4096_S1024x128_1_1_0_0_n_n.contr.Idx) :
    (dot_S1024x4096_S128x4096_S1024x128_1_1_0_0_n_n.rhsIdx i q 0).val = (i 1).val := by
  unfold DotDims.rhsIdx
  rw [dif_neg (show ¬(0 : Fin S128x4096.rank) ∈ dot_S1024x4096_S128x4096_S1024x128_1_1_0_0_n_n.rhsBatch by decide), dif_pos (show (0 : Fin S128x4096.rank) ∈ dot_S1024x4096_S128x4096_S1024x128_1_1_0_0_n_n.rhsNonContracting by decide)]
  rfl
/-- Column axis of the right operand: the contracted column. -/
theorem rhs_contract_1 (i : S1024x128.Idx) (q : dot_S1024x4096_S128x4096_S1024x128_1_1_0_0_n_n.contr.Idx) :
    (dot_S1024x4096_S128x4096_S1024x128_1_1_0_0_n_n.rhsIdx i q 1).val = (q ⟨0, by decide⟩).val :=
  dot_S1024x4096_S128x4096_S1024x128_1_1_0_0_n_n.rhsIdx_val_of_single rfl i q

/-- The product accumulated into the zero tile reads, at (r, o), the sum over the 4096 columns d of a[r, d] · b[o, d]. -/
theorem contract_apply (a : FVec Ideal S1024x4096 .bf16) (b : FVec Ideal S128x4096 .bf16) (r : Fin 1024) (o : Fin 128) :
    matmul dot_S1024x4096_S128x4096_S1024x128_1_1_0_0_n_n none a b (constant (F := Ideal) S1024x128 .f32 0x00000000#32) (ix2 r o)
      = ∑ d : Fin 4096, a (ix2 r d) * b (ix2 o d) := by
  show FloatOps.matmul dot_S1024x4096_S128x4096_S1024x128_1_1_0_0_n_n none a b (constant (F := Ideal) S1024x128 .f32 0x00000000#32) (ix2 r o) = _
  rw [Ideal.matmul_constant_zero_apply, ← Equiv.sum_comp (contrEquiv1 dot_S1024x4096_S128x4096_S1024x128_1_1_0_0_n_n 4096 rfl rfl).symm]
  refine Finset.sum_congr rfl fun k _ => ?_
  have hk := contrEquiv1_symm_val dot_S1024x4096_S128x4096_S1024x128_1_1_0_0_n_n 4096 rfl rfl k
  have el : dot_S1024x4096_S128x4096_S1024x128_1_1_0_0_n_n.lhsIdx (ix2 r o) ((contrEquiv1 dot_S1024x4096_S128x4096_S1024x128_1_1_0_0_n_n 4096 rfl rfl).symm k) = ix2 r k := funext fun ax => Fin.ext (by
    match ax with
    | ⟨0, _⟩ => exact lhs_contract_0 _ _
    | ⟨1, _⟩ => exact (lhs_contract_1 _ _).trans hk)
  have er : dot_S1024x4096_S128x4096_S1024x128_1_1_0_0_n_n.rhsIdx (ix2 r o) ((contrEquiv1 dot_S1024x4096_S128x4096_S1024x128_1_1_0_0_n_n 4096 rfl rfl).symm k) = ix2 o k := funext fun ax => Fin.ext (by
    match ax with
    | ⟨0, _⟩ => exact rhs_contract_0 _ _
    | ⟨1, _⟩ => exact (rhs_contract_1 _ _).trans hk)
  rw [el, er]

/-! ## The dequantized block -/

/-- The block of weights the body forms from a block of codes, its zero points and its scales: in the [128, 32, 128] view the
    code and the zero point of its group are read as signed integers, subtracted, and multiplied by the group's scale. -/
def deqBlock (q : Vec Ideal S128x4096 .i32) (z : Vec Ideal S128x32 .i32) (s : Vec Ideal S128x32 .f32) : FVec Ideal S128x4096 .bf16 :=
  shapeCast S128x4096
    (truncf .bf16
      (mulf
        (extf .f32
          (subf (sitofp .bf16 (shapeCast S128x32x128 q Facts₀.shapeCasts_S128x4096_S128x32x128 : IVec S128x32x128 32))
            (broadcastTo S128x32x128
              (shapeCast S128x32x1 (sitofp .bf16 (z : IVec S128x32 32) : FVec Ideal S128x32 .bf16) Facts₀.shapeCasts_S128x32_S128x32x1)
              Facts₀.broadcasts_S128x32x1_S128x32x128) : FVec Ideal S128x32x128 .bf16)
          Facts₀.bitsLt_bf16_f32 : FVec Ideal S128x32x128 .f32)
        (broadcastTo S128x32x128 (shapeCast S128x32x1 (s : FVec Ideal S128x32 .f32) Facts₀.shapeCasts_S128x32_S128x32x1)
          Facts₀.broadcasts_S128x32x1_S128x32x128))
      Facts₀.bitsLt_bf16_f32 : FVec Ideal S128x32x128 .bf16)
    Facts₀.shapeCasts_S128x32x128_S128x4096

/-- Its entry in row o, column d: the code there minus the zero point of group d / 128, times that group's scale. -/
theorem deqBlock_apply (q : Vec Ideal S128x4096 .i32) (z : Vec Ideal S128x32 .i32) (s : Vec Ideal S128x32 .f32) (o : Fin 128) (d : Fin 4096) :
    deqBlock q z s (ix2 o d) = Cert.Spec.deq (q (ix2 o d)) (z (ix2 o (Cert.Spec.g32 d))) (s (ix2 o (Cert.Spec.g32 d))) := by
  have hl : d.val % 128 < 128 := Nat.mod_lt _ (by decide)
  have hd : d.val = (Cert.Spec.g32 d).val * 128 + (⟨d.val % 128, hl⟩ : Fin 128).val := by
    show d.val = d.val / 128 * 128 + d.val % 128
    omega
  unfold deqBlock
  refine (cast_flat_apply _ _ o d (Cert.Spec.g32 d) ⟨d.val % 128, hl⟩ hd).trans ?_
  rw [truncf_apply, mulf_apply, extf_apply, subf_apply, sitofp_apply, cast_groups_apply _ _ o (Cert.Spec.g32 d) ⟨d.val % 128, hl⟩ d hd,
    bcast_lane_apply, bcast_lane_apply, cast_unit_apply, cast_unit_apply, sitofp_apply]
  rfl

/-! ## The stored tile -/

/-- One projection as the body computes it: the x block, narrowed, against the dequantized block, into the zero tile. -/
def projBlock (x : Vec Ideal S1024x4096 .f32) (q : Vec Ideal S128x4096 .i32) (z : Vec Ideal S128x32 .i32) (s : Vec Ideal S128x32 .f32) :
    FVec Ideal S1024x128 .f32 :=
  matmul dot_S1024x4096_S128x4096_S1024x128_1_1_0_0_n_n none
    (truncf .bf16 (shapeCast S1024x4096 x Facts₀.shapeCasts_S1024x4096_S1024x4096 : FVec Ideal S1024x4096 .f32) Facts₀.bitsLt_bf16_f32)
    (deqBlock q z s) (constant (F := Ideal) S1024x128 .f32 0x00000000#32)

/-- At (r, o) it is the specification's projection of row r of the x block on row o of the weight block. -/
theorem projBlock_apply (x : Vec Ideal S1024x4096 .f32) (q : Vec Ideal S128x4096 .i32) (z : Vec Ideal S128x32 .i32) (s : Vec Ideal S128x32 .f32)
    (r : Fin 1024) (o : Fin 128) : projBlock x q z s (ix2 r o) = Cert.Spec.tileProj x q z s r o := by
  unfold projBlock Cert.Spec.tileProj
  refine (contract_apply _ _ r o).trans (Finset.sum_congr rfl fun d _ => ?_)
  rw [truncf_apply, shapeCast_self, deqBlock_apply]

/-- The stored value is silu of the gate projection times the up projection, entry by entry. -/
theorem k0_pay1_eq (x : Vec Ideal S1024x4096 .f32) (gq : Vec Ideal S128x4096 .i32) (gz : Vec Ideal S128x32 .i32) (gs : Vec Ideal S128x32 .f32)
    (uq : Vec Ideal S128x4096 .i32) (uz : Vec Ideal S128x32 .i32) (us : Vec Ideal S128x32 .f32) :
    k0_pay1 (F := Ideal) x gq gz gs uq uz us
      = truncf .bf16 (mulf (mulf (projBlock x gq gz gs) (logistic (projBlock x gq gz gs))) (projBlock x uq uz us)) Facts₀.bitsLt_bf16_f32 := rfl

/-- The body's stored value at row `r`, column `o` of the tile is the specification's hidden tile of the loaded blocks. -/
theorem k0_pay1_apply (x : Vec Ideal S1024x4096 .f32) (gq : Vec Ideal S128x4096 .i32) (gz : Vec Ideal S128x32 .i32) (gs : Vec Ideal S128x32 .f32)
    (uq : Vec Ideal S128x4096 .i32) (uz : Vec Ideal S128x32 .i32) (us : Vec Ideal S128x32 .f32) (r : Fin 1024) (o : Fin 128) :
    k0_pay1 (F := Ideal) x gq gz gs uq uz us (ix2 r o) = Cert.Spec.tileHid x gq gz gs uq uz us r o := by
  rw [k0_pay1_eq, truncf_apply, mulf_apply, mulf_apply]
  show (projBlock x gq gz gs (ix2 r o) * Ideal.logistic (projBlock x gq gz gs (ix2 r o))) * projBlock x uq uz us (ix2 r o) = _
  rw [projBlock_apply, projBlock_apply]
  rfl

end Cert.KernelIdeal.Val

end
-- ==== Proof.Value.Blocks0.lean ====
/-
  From tiles to the array, call 0: grid point (i, j) writes tile (i, j) of the hidden activation, the tiles cover it, and each
  tile is the specification's hidden array restricted to its rows and columns — the gate block being rows [128 j, …) and the up
  block rows [128 (j + 86), …) of the packed tables.
-/
import proofs.«427878_j59425167507992_3_alg».proof.Proof.KernelIdealFrame.Base
import proofs.«427878_j59425167507992_3_alg».proof.Proof.Value.Pay0
import proofs.«427878_j59425167507992_3_alg».proof.Proof.Value.Spec
import Idealize.ShloMosaic.Lib.Pipeline.Value
import Idealize.ShloMosaic.Lib.ValueIdx

set_option maxRecDepth 16384

noncomputable section

open scoped BigOperators

namespace Cert.KernelIdeal.Val

open Idealize.ShloMosaic Idealize.ShloMosaic.ValueIdx
open Cert.KernelIdeal Cert.KernelIdeal.Gen

open Idealize.ShloMosaic.TcCoe Idealize.SL.Sem
open Idealize.ShloMosaic.Pipeline (Dat)

variable (V : (c : Dev nD) → (b : Ref sig .tc) → Buf (Elt Ideal) ((c : Thread nD τ).loc b))

namespace HidTiles

/-- The rectangles the body loads and stores through are whole buffers: they start at the origin. -/
theorem origin : (![0, 0] : Fin 2 → Nat) = fun _ => 0 := funext fun a => by fin_cases a <;> rfl

/-! ## One entry of a tile against the whole arrays -/

/-- If row `r` of the x block is row `ρ` of x, row `o` of the three gate blocks is the gate row of hidden column `γ` in the packed
    tables, and row `o` of the three up blocks is its up row, then the tile's entry (r, o) is the hidden activation at (ρ, γ):
    both are the same two sums over the 4096 input columns, term by term, so only the definitions are used. -/
theorem tileHid_eq_hidAt
    (X : S2048x4096.Idx → EReal) (Q : S22016x4096.Idx → BitVec 32) (Z : S22016x32.Idx → BitVec 32) (Sc : S22016x32.Idx → EReal)
    (x : S1024x4096.Idx → EReal) (gq : S128x4096.Idx → BitVec 32) (gz : S128x32.Idx → BitVec 32) (gs : S128x32.Idx → EReal)
    (uq : S128x4096.Idx → BitVec 32) (uz : S128x32.Idx → BitVec 32) (us : S128x32.Idx → EReal)
    (r : Fin 1024) (o : Fin 128) (ρ : Fin 2048) (γ : Fin 11008)
    (hx : ∀ d : Fin 4096, x (ix2 r d) = X (ix2 ρ d))
    (hgq : ∀ d : Fin 4096, gq (ix2 o d) = Q (ix2 (Cert.Spec.gateRow γ) d))
    (hgz : ∀ g : Fin 32, gz (ix2 o g) = Z (ix2 (Cert.Spec.gateRow γ) g))
    (hgs : ∀ g : Fin 32, gs (ix2 o g) = Sc (ix2 (Cert.Spec.gateRow γ) g))
    (huq : ∀ d : Fin 4096, uq (ix2 o d) = Q (ix2 (Cert.Spec.upRow γ) d))
    (huz : ∀ g : Fin 32, uz (ix2 o g) = Z (ix2 (Cert.Spec.upRow γ) g))
    (hus : ∀ g : Fin 32, us (ix2 o g) = Sc (ix2 (Cert.Spec.upRow γ) g)) :
    Cert.Spec.tileHid x gq gz gs uq uz us r o = Cert.Spec.hidAt X Q Z Sc ρ γ := by
  unfold Cert.Spec.tileHid Cert.Spec.hidAt Cert.Spec.tileProj Cert.Spec.proj Cert.Spec.wgu
  simp only [hx, hgq, hgz, hgs, huq, huz, hus]

/-! ## The index maps over the grid -/

/-- At every point of the 2 × 86 grid, with (i, j) the tile's block index: the x window is at row block i; each gate window at row
    block j of its table and each up window at row block j + 86 of the same table; no input window moves along its second axis;
    and i ≤ 1, j ≤ 85. A finite check over the 172 points. -/
theorem idx_facts : ∀ t : Fin cfg0.N,
    win0_0.index t (0 : Fin 2) = win0_7.index t (0 : Fin 2) ∧ win0_0.index t (1 : Fin 2) = 0
    ∧ win0_1.index t (0 : Fin 2) = win0_7.index t (1 : Fin 2) ∧ win0_1.index t (1 : Fin 2) = 0
    ∧ win0_2.index t (0 : Fin 2) = win0_7.index t (1 : Fin 2) + 86 ∧ win0_2.index t (1 : Fin 2) = 0
    ∧ win0_3.index t (0 : Fin 2) = win0_7.index t (1 : Fin 2) ∧ win0_3.index t (1 : Fin 2) = 0
    ∧ win0_4.index t (0 : Fin 2) = win0_7.index t (1 : Fin 2) + 86 ∧ win0_4.index t (1 : Fin 2) = 0
    ∧ win0_5.index t (0 : Fin 2) = win0_7.index t (1 : Fin 2) ∧ win0_5.index t (1 : Fin 2) = 0
    ∧ win0_6.index t (0 : Fin 2) = win0_7.index t (1 : Fin 2) + 86 ∧ win0_6.index t (1 : Fin 2) = 0
    ∧ win0_7.index t (0 : Fin 2) ≤ 1 ∧ win0_7.index t (1 : Fin 2) ≤ 85 :=
  (by decide +kernel : ∀ t : Fin grid0.N, _)

/-- Every block index (i, j) with i < 2, j < 86 of the hidden array is some point's. -/
theorem idx_onto : ∀ (q0 : Fin 2) (q1 : Fin 86), ∃ t : Fin cfg0.N, win0_7.index t = ![q0.val, q1.val] :=
  (by decide +kernel : ∀ (q0 : Fin 2) (q1 : Fin 86), ∃ t : Fin grid0.N, win0_7.index t = ![q0.val, q1.val])

/-! ## Each input block, read where its window's rectangle says

  An entry of a block sits in its array, on each axis, at block index × block size + 1 × its coordinate inside the block. -/

/-- Row `r` of the x block at point `t` is row `ρ` of x when `ρ` = 1024 × (the window's row block) + `r`; the columns agree. -/
theorem xblk_apply (c : Dev nD) (t : Fin cfg0.N) (r : Fin 1024) (d : Fin 4096) (ρ : Fin 2048)
    (hρ : ρ.val = win0_0.index t (0 : Fin 2) * 1024 + r.val) (h1 : win0_0.index t (1 : Fin 2) = 0) :
    (Frame.iblk0 V c 0 t : Vec Ideal S1024x4096 .f32) (ix2 r d) = (V c main_v0 : S2048x4096.Idx → EReal) (ix2 ρ d) := by
  unfold Frame.iblk0
  rw [View.read_apply]
  show V c main_v0 _ = V c main_v0 _
  congr 1
  funext a
  apply Fin.ext
  match a with
  | ⟨0, _⟩ => show win0_0.index t (0 : Fin 2) * 1024 + 1 * r.val = ρ.val; omega
  | ⟨1, _⟩ => show win0_0.index t (1 : Fin 2) * 4096 + 1 * d.val = d.val; omega

/-- Row `o` of the gate code block at point `t` is row `κ` of the packed code table when `κ` = 128 × (the window's row block) + `o`. -/
theorem gqblk_apply (c : Dev nD) (t : Fin cfg0.N) (o : Fin 128) (d : Fin 4096) (κ : Fin 22016)
    (hκ : κ.val = win0_1.index t (0 : Fin 2) * 128 + o.val) (h1 : win0_1.index t (1 : Fin 2) = 0) :
    (Frame.iblk0 V c 1 t : Vec Ideal S128x4096 .i32) (ix2 o d) = (V c main_arg1 : S22016x4096.Idx → BitVec 32) (ix2 κ d) := by
  unfold Frame.iblk0
  rw [View.read_apply]
  show V c main_arg1 _ = V c main_arg1 _
  congr 1
  funext a
  apply Fin.ext
  match a with
  | ⟨0, _⟩ => show win0_1.index t (0 : Fin 2) * 128 + 1 * o.val = κ.val; omega
  | ⟨1, _⟩ => show win0_1.index t (1 : Fin 2) * 4096 + 1 * d.val = d.val; omega

/-- Row `o` of the up code block at point `t` is row `κ` of the same code table when `κ` = 128 × (the window's row block) + `o`. -/
theorem uqblk_apply (c : Dev nD) (t : Fin cfg0.N) (o : Fin 128) (d : Fin 4096) (κ : Fin 22016)
    (hκ : κ.val = win0_2.index t (0 : Fin 2) * 128 + o.val) (h1 : win0_2.index t (1 : Fin 2) = 0) :
    (Frame.iblk0 V c 2 t : Vec Ideal S128x4096 .i32) (ix2 o d) = (V c main_arg1 : S22016x4096.Idx → BitVec 32) (ix2 κ d) := by
  unfold Frame.iblk0
  rw [View.read_apply]
  show V c main_arg1 _ = V c main_arg1 _
  congr 1
  funext a
  apply Fin.ext
  match a with
  | ⟨0, _⟩ => show win0_2.index t (0 : Fin 2) * 128 + 1 * o.val = κ.val; omega
  | ⟨1, _⟩ => show win0_2.index t (1 : Fin 2) * 4096 + 1 * d.val = d.val; omega

/-- Row `o` of the gate zero-point block at point `t` is row `κ` of the zero-point table when `κ` = 128 × (the window's row block) + `o`. -/
theorem gzblk_apply (c : Dev nD) (t : Fin cfg0.N) (o : Fin 128) (d : Fin 32) (κ : Fin 22016)
    (hκ : κ.val = win0_3.index t (0 : Fin 2) * 128 + o.val) (h1 : win0_3.index t (1 : Fin 2) = 0) :
    (Frame.iblk0 V c 3 t : Vec Ideal S128x32 .i32) (ix2 o d) = (V c main_arg2 : S22016x32.Idx → BitVec 32) (ix2 κ d) := by
  unfold Frame.iblk0
  rw [View.read_apply]
  show V c main_arg2 _ = V c main_arg2 _
  congr 1
  funext a
  apply Fin.ext
  match a with
  | ⟨0, _⟩ => show win0_3.index t (0 : Fin 2) * 128 + 1 * o.val = κ.val; omega
  | ⟨1, _⟩ => show win0_3.index t (1 : Fin 2) * 32 + 1 * d.val = d.val; omega

/-- Row `o` of the up zero-point block at point `t` is row `κ` of the same zero-point table when `κ` = 128 × (the window's row block) + `o`. -/
theorem uzblk_apply (c : Dev nD) (t : Fin cfg0.N) (o : Fin 128) (d : Fin 32) (κ : Fin 22016)
    (hκ : κ.val = win0_4.index t (0 : Fin 2) * 128 + o.val) (h1 : win0_4.index t (1 : Fin 2) = 0) :
    (Frame.iblk0 V c 4 t : Vec Ideal S128x32 .i32) (ix2 o d) = (V c main_arg2 : S22016x32.Idx → BitVec 32) (ix2 κ d) := by
  unfold Frame.iblk0
  rw [View.read_apply]
  show V c main_arg2 _ = V c main_arg2 _
  congr 1
  funext a
  apply Fin.ext
  match a with
  | ⟨0, _⟩ => show win0_4.index t (0 : Fin 2) * 128 + 1 * o.val = κ.val; omega
  | ⟨1, _⟩ => show win0_4.index t (1 : Fin 2) * 32 + 1 * d.val = d.val; omega

/-- Row `o` of the gate scale block at point `t` is row `κ` of the scale table when `κ` = 128 × (the window's row block) + `o`. -/
theorem gsblk_apply (c : Dev nD) (t : Fin cfg0.N) (o : Fin 128) (d : Fin 32) (κ : Fin 22016)
    (hκ : κ.val = win0_5.index t (0 : Fin 2) * 128 + o.val) (h1 : win0_5.index t (1 : Fin 2) = 0) :
    (Frame.iblk0 V c 5 t : Vec Ideal S128x32 .f32) (ix2 o d) = (V c main_arg3 : S22016x32.Idx → EReal) (ix2 κ d) := by
  unfold Frame.iblk0
  rw [View.read_apply]
  show V c main_arg3 _ = V c main_arg3 _
  congr 1
  funext a
  apply Fin.ext
  match a with
  | ⟨0, _⟩ => show win0_5.index t (0 : Fin 2) * 128 + 1 * o.val = κ.val; omega
  | ⟨1, _⟩ => show win0_5.index t (1 : Fin 2) * 32 + 1 * d.val = d.val; omega

/-- Row `o` of the up scale block at point `t` is row `κ` of the same scale table when `κ` = 128 × (the window's row block) + `o`. -/
theorem usblk_apply (c : Dev nD) (t : Fin cfg0.N) (o : Fin 128) (d : Fin 32) (κ : Fin 22016)
    (hκ : κ.val = win0_6.index t (0 : Fin 2) * 128 + o.val) (h1 : win0_6.index t (1 : Fin 2) = 0) :
    (Frame.iblk0 V c 6 t : Vec Ideal S128x32 .f32) (ix2 o d) = (V c main_arg3 : S22016x32.Idx → EReal) (ix2 κ d) := by
  unfold Frame.iblk0
  rw [View.read_apply]
  show V c main_arg3 _ = V c main_arg3 _
  congr 1
  funext a
  apply Fin.ext
  match a with
  | ⟨0, _⟩ => show win0_6.index t (0 : Fin 2) * 128 + 1 * o.val = κ.val; omega
  | ⟨1, _⟩ => show win0_6.index t (1 : Fin 2) * 32 + 1 * d.val = d.val; omega

/-! ## What a point writes back -/

/-- The value stored at entry (r, o) of point `t`'s tile is the hidden activation at row `ρ` = 1024 i + r, column `γ` = 128 j + o,
    (i, j) the tile's block index: row `r` of the x block is row `ρ` of x; row `o` of the gate blocks is table row 128 j + o, the
    gate row of `γ`; row `o` of the up blocks is table row 128 (j + 86) + o = `γ` + 11008, its up row. -/
theorem tile_entry (c : Dev nD) (t : Fin cfg0.N) (r : Fin 1024) (o : Fin 128) (ρ : Fin 2048) (γ : Fin 11008)
    (hρ : ρ.val = win0_7.index t (0 : Fin 2) * 1024 + r.val) (hγ : γ.val = win0_7.index t (1 : Fin 2) * 128 + o.val) :
    k0_pay1 (F := Ideal) (Frame.iblk0 V c 0 t) (Frame.iblk0 V c 1 t) (Frame.iblk0 V c 3 t) (Frame.iblk0 V c 5 t)
        (Frame.iblk0 V c 2 t) (Frame.iblk0 V c 4 t) (Frame.iblk0 V c 6 t) (ix2 r o)
      = Cert.Spec.hidAt (V c main_v0 : S2048x4096.Idx → EReal) (V c main_arg1 : S22016x4096.Idx → BitVec 32)
          (V c main_arg2 : S22016x32.Idx → BitVec 32) (V c main_arg3 : S22016x32.Idx → EReal) ρ γ := by
  obtain ⟨e00, e01, e10, e11, e20, e21, e30, e31, e40, e41, e50, e51, e60, e61, b0, b1⟩ := idx_facts t
  have hg : (Cert.Spec.gateRow γ).val = γ.val := rfl
  have hu : (Cert.Spec.upRow γ).val = γ.val + 11008 := rfl
  refine (k0_pay1_apply (Frame.iblk0 V c 0 t) (Frame.iblk0 V c 1 t) (Frame.iblk0 V c 3 t) (Frame.iblk0 V c 5 t)
    (Frame.iblk0 V c 2 t) (Frame.iblk0 V c 4 t) (Frame.iblk0 V c 6 t) r o).trans ?_
  exact tileHid_eq_hidAt (V c main_v0 : S2048x4096.Idx → EReal) (V c main_arg1 : S22016x4096.Idx → BitVec 32)
    (V c main_arg2 : S22016x32.Idx → BitVec 32) (V c main_arg3 : S22016x32.Idx → EReal)
    (Frame.iblk0 V c 0 t) (Frame.iblk0 V c 1 t) (Frame.iblk0 V c 3 t) (Frame.iblk0 V c 5 t)
    (Frame.iblk0 V c 2 t) (Frame.iblk0 V c 4 t) (Frame.iblk0 V c 6 t) r o ρ γ
    (fun d => xblk_apply V c t r d ρ (by omega) e01)
    (fun d => gqblk_apply V c t o d (Cert.Spec.gateRow γ) (by omega) e11)
    (fun g => gzblk_apply V c t o g (Cert.Spec.gateRow γ) (by omega) e31)
    (fun g => gsblk_apply V c t o g (Cert.Spec.gateRow γ) (by omega) e51)
    (fun d => uqblk_apply V c t o d (Cert.Spec.upRow γ) (by omega) e21)
    (fun g => uzblk_apply V c t o g (Cert.Spec.upRow γ) (by omega) e41)
    (fun g => usblk_apply V c t o g (Cert.Spec.upRow γ) (by omega) e61)

/-- What point `t` writes back is tile `t` of the specification's hidden activation of the arrays the region was entered with:
    the body's one store covers its buffer, its loads read whole buffers, and entry (r, o) of the tile sits in the array at
    (1024 i + r, 128 j + o). -/
theorem flushed_eq (c : Dev nD) (t : Fin cfg0.N) :
    (Frame.dat0 V c).flushed 7 t = ((cfg0.win 7).blk t).view.read (Elt Ideal)
      (Cert.Spec.hid (V c main_v0 : S2048x4096.Idx → EReal) (V c main_arg1 : S22016x4096.Idx → BitVec 32)
        (V c main_arg2 : S22016x32.Idx → BitVec 32) (V c main_arg3 : S22016x32.Idx → EReal)) := by
  show (cfg0.win 7).cut (grid0.coords t) ((Frame.dat0 V c).after 7 t) = _
  rw [Frame.after0_7]
  unfold Frame.out0_7
  rw [View.canon_unit_zero origin]
  simp only [View.ld_unit_zero (S := S1024x4096) origin, View.ld_unit_zero (S := S128x4096) origin,
    View.ld_unit_zero (S := S128x32) origin]
  funext j
  have hr : ((((cfg0.win 7).blk t).view.emb j) (0 : Fin 2)).val = win0_7.index t (0 : Fin 2) * 1024 + (j 0).val := by
    show win0_7.index t (0 : Fin 2) * 1024 + 1 * (j 0).val = _
    omega
  have hc : ((((cfg0.win 7).blk t).view.emb j) (1 : Fin 2)).val = win0_7.index t (1 : Fin 2) * 128 + (j 1).val := by
    show win0_7.index t (1 : Fin 2) * 128 + 1 * (j 1).val = _
    omega
  refine (congrArg (k0_pay1 (F := Ideal) (Frame.iblk0 V c 0 t) (Frame.iblk0 V c 1 t) (Frame.iblk0 V c 3 t) (Frame.iblk0 V c 5 t)
    (Frame.iblk0 V c 2 t) (Frame.iblk0 V c 4 t) (Frame.iblk0 V c 6 t)) (eq_ix2 (j : S1024x128.Idx))).trans ?_
  exact tile_entry V c t (j 0) (j 1) (((cfg0.win 7).blk t).view.emb j (0 : Fin 2)) (((cfg0.win 7).blk t).view.emb j (1 : Fin 2)) hr hc

/-! ## The tiles cover the array -/

/-- An index of the hidden array is in point `t`'s tile iff each coordinate is in the tile's range on its axis. -/
theorem mem_tile (t : Fin cfg0.N) (i : S2048x11008.Idx) :
    i ∈ ((cfg0.win 7).blk t).view.set ↔ ∀ a : Fin 2, win0_7.index t a * S1024x128.size a ≤ (i a).val ∧ (i a).val < win0_7.index t a * S1024x128.size a + S1024x128.size a := by
  show i ∈ ((View.whole main_v1).slice (win0_7.rect t)).set ↔ _
  rw [View.set_slice_whole, Rect.mem_set_unit]
  exact Iff.rfl

/-- Row ρ, column γ of the hidden array lies in the tile of the point whose block index is (ρ / 1024, γ / 128), and every point
    writes its tile back. -/
theorem covered (i : S2048x11008.Idx) :
    ∃ t : Fin cfg0.N, (cfg0.win 7).flush t = true ∧ i ∈ ((cfg0.win 7).blk t).view.set := by
  have hi0 : (i 0).val < 2048 := (i 0).isLt
  have hi1 : (i 1).val < 11008 := (i 1).isLt
  obtain ⟨t, ht⟩ := idx_onto ⟨(i 0).val / 1024, by omega⟩ ⟨(i 1).val / 128, by omega⟩
  have q0 : win0_7.index t (0 : Fin 2) = (i 0).val / 1024 := congrFun ht 0
  have q1 : win0_7.index t (1 : Fin 2) = (i 1).val / 128 := congrFun ht 1
  refine ⟨t, flush0_7 t, ?_⟩
  rw [mem_tile]
  intro a
  match a with
  | ⟨0, _⟩ => show win0_7.index t (0 : Fin 2) * 1024 ≤ (i 0).val ∧ (i 0).val < win0_7.index t (0 : Fin 2) * 1024 + 1024; omega
  | ⟨1, _⟩ => show win0_7.index t (1 : Fin 2) * 128 ≤ (i 1).val ∧ (i 1).val < win0_7.index t (1 : Fin 2) * 128 + 128; omega

end HidTiles

/-- After call 0 its output array holds the specification's hidden activation of the arrays the region was entered with. -/
theorem final0 (c : Dev nD) :
    ((Cert.KernelIdeal.Frame.dat0 V c).arrAt 7 cfg0.N : S2048x11008.Idx → EReal)
      = Cert.Spec.hid (V c main_v0 : S2048x4096.Idx → EReal) (V c main_arg1 : S22016x4096.Idx → BitVec 32)
          (V c main_arg2 : S22016x32.Idx → BitVec 32) (V c main_arg3 : S22016x32.Idx → EReal) :=
  (Cert.KernelIdeal.Frame.dat0 V c).arrAt_eq_of_cover 7
    (Cert.Spec.hid (V c main_v0 : S2048x4096.Idx → EReal) (V c main_arg1 : S22016x4096.Idx → BitVec 32)
      (V c main_arg2 : S22016x32.Idx → BitVec 32) (V c main_arg3 : S22016x32.Idx → EReal))
    (fun t _ => HidTiles.flushed_eq V c t) HidTiles.covered

end Cert.KernelIdeal.Val

end
-- ==== Proof.Value.Pay1.lean ====
/-
  Call 1's stored value at an entry of its tile, over the extended reals: the contraction of the hidden block with the
  dequantized down block.
-/
import proofs.«427878_j59425167507992_3_alg».proof.Proof.Gen.KernelIdeal.Skeleton
import proofs.«427878_j59425167507992_3_alg».proof.Proof.Value.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Val

open Idealize.ShloMosaic Idealize.ShloMosaic.ValueIdx
open Cert.KernelIdeal Cert.KernelIdeal.Gen

/-! ## The layout operations of the weight block, read at coordinates

The down weight block has 128 rows and 11008 columns; a column `d` lies in group `d / 128` at lane `d % 128`, and
`d = 128 · (d / 128) + d % 128`. The four lemmas below read each layout operation of the dequantization at explicit
coordinates; all are statements about row-major positions. -/

section Layout
variable {α : Type}

/-- The [128, 11008] block regrouped as [128, 86, 128]: entry (o, g, l) is column d = 128·g + l of row o, since both
    have row-major position o·11008 + 128·g + l. -/
theorem split_apply (x : S128x11008.Idx → α) (hc : S128x11008.ShapeCasts S128x86x128)
    (o : Fin 128) (g : Fin 86) (l : Fin 128) (d : Fin 11008) (hd : d.val = 128 * g.val + l.val) :
    shapeCast S128x86x128 x hc (ix3 o g l) = x (ix2 o d) := by
  refine shapeCast_apply x hc (ix3 o g l) (ix2 o d) ?_
  rw [Shape.rowMajor_val_two, Shape.rowMajor_val_three]
  show o.val * 11008 + d.val = (o.val * 86 + g.val) * 128 + l.val
  omega

/-- The [128, 86, 128] block flattened to [128, 11008]: column d of row o is entry (o, d / 128, d % 128). -/
theorem join_apply (y : S128x86x128.Idx → α) (hc : S128x86x128.ShapeCasts S128x11008)
    (o : Fin 128) (d : Fin 11008) :
    shapeCast S128x11008 y hc (ix2 o d)
      = y (ix3 o (Cert.Spec.g86 d) (⟨d.val % 128, Nat.mod_lt _ (by decide)⟩ : Fin 128)) := by
  refine shapeCast_apply y hc (ix2 o d) (ix3 o (Cert.Spec.g86 d) (⟨d.val % 128, Nat.mod_lt _ (by decide)⟩ : Fin 128)) ?_
  rw [Shape.rowMajor_val_two, Shape.rowMajor_val_three]
  show (o.val * 86 + d.val / 128) * 128 + d.val % 128 = o.val * 11008 + d.val
  omega

/-- A [128, 86] table given a trailing unit axis: entry (o, g, u) is entry (o, g); the unit coordinate u is 0. -/
theorem unit_apply (x : S128x86.Idx → α) (hc : S128x86.ShapeCasts S128x86x1)
    (o : Fin 128) (g : Fin 86) (u : Fin 1) :
    shapeCast S128x86x1 x hc (ix3 o g u) = x (ix2 o g) := by
  refine shapeCast_apply x hc (ix3 o g u) (ix2 o g) ?_
  rw [Shape.rowMajor_val_two, Shape.rowMajor_val_three]
  show o.val * 86 + g.val = (o.val * 86 + g.val) * 1 + u.val
  have hu := u.isLt
  omega

/-- The [128, 86, 1] table repeated along its last axis: entry (o, g, l) is entry (o, g, 0), whatever the lane l. -/
theorem spread_apply (x : S128x86x1.Idx → α) (hb : S128x86x1.Broadcasts S128x86x128)
    (o : Fin 128) (g : Fin 86) (l : Fin 128) :
    broadcastTo S128x86x128 x hb (ix3 o g l) = x (ix3 o g (0 : Fin 1)) := by
  refine broadcastTo_apply x hb (ix3 o g l) (ix3 o g (0 : Fin 1)) fun a => ?_
  match a with
  | ⟨0, _⟩ => show o.val = if (128 : Nat) = 1 then 0 else o.val; rw [if_neg (by decide)]
  | ⟨1, _⟩ => show g.val = if (86 : Nat) = 1 then 0 else g.val; rw [if_neg (by decide)]
  | ⟨2, _⟩ => show (0 : Nat) = if (1 : Nat) = 1 then 0 else l.val; rw [if_pos rfl]

end Layout

/-! ## The dequantized weight at an entry -/

/-- The dequantized down block at row n, column i: the code at (n, i) minus the zero point of i's group, both read
    signed and exactly, times that group's scale. The format changes are the identity on extended reals. -/
theorem weight_apply (q : Vec Ideal S128x11008 .i32) (z : Vec Ideal S128x86 .i32) (s : Vec Ideal S128x86 .f32)
    (hc1 : S128x11008.ShapeCasts S128x86x128) (hc2 : S128x86.ShapeCasts S128x86x1)
    (hb : S128x86x1.Broadcasts S128x86x128) (hc3 : S128x86x128.ShapeCasts S128x11008)
    (hlt : FTy.bits .bf16 < FTy.bits .f32) (n : Fin 128) (i : Fin 11008) :
    (shapeCast S128x11008
        (truncf .bf16
          (mulf
            (extf .f32
              (subf (sitofp (F := Ideal) .bf16 (shapeCast S128x86x128 q hc1))
                (broadcastTo S128x86x128 (shapeCast S128x86x1 (sitofp (F := Ideal) .bf16 z) hc2) hb)) hlt)
            (broadcastTo S128x86x128 (shapeCast S128x86x1 s hc2) hb)) hlt : FVec Ideal S128x86x128 .bf16)
        hc3 : FVec Ideal S128x11008 .bf16) (ix2 n i)
      = Cert.Spec.deq (q (ix2 n i)) (z (ix2 n (Cert.Spec.g86 i))) (s (ix2 n (Cert.Spec.g86 i))) := by
  refine (join_apply _ hc3 n i).trans ?_
  rw [truncf_apply, mulf_apply, extf_apply, subf_apply, sitofp_apply]
  rw [split_apply q hc1 n (Cert.Spec.g86 i) ⟨i.val % 128, Nat.mod_lt _ (by decide)⟩ i
    (by show i.val = 128 * (i.val / 128) + i.val % 128; omega)]
  rw [spread_apply _ hb, spread_apply _ hb, unit_apply _ hc2, unit_apply _ hc2, sitofp_apply]
  rfl

/-! ## The contraction -/

/-- Row index of the left operand: the result's row. -/
theorem lhs_tile_0 (j : S1024x128.Idx) (k : dot_S1024x11008_S128x11008_S1024x128_1_1_0_0_n_n.contr.Idx) :
    (dot_S1024x11008_S128x11008_S1024x128_1_1_0_0_n_n.lhsIdx j k 0).val = (j 0).val := by
  unfold DotDims.lhsIdx
  rw [dif_neg (show ¬(0 : Fin S1024x11008.rank) ∈ dot_S1024x11008_S128x11008_S1024x128_1_1_0_0_n_n.lhsBatch by decide), dif_pos (show (0 : Fin S1024x11008.rank) ∈ dot_S1024x11008_S128x11008_S1024x128_1_1_0_0_n_n.lhsNonContracting by decide)]
  rfl
/-- Column index of the left operand: the contracted coordinate. -/
theorem lhs_tile_1 (j : S1024x128.Idx) (k : dot_S1024x11008_S128x11008_S1024x128_1_1_0_0_n_n.contr.Idx) :
    (dot_S1024x11008_S128x11008_S1024x128_1_1_0_0_n_n.lhsIdx j k 1).val = (k ⟨0, by decide⟩).val :=
  dot_S1024x11008_S128x11008_S1024x128_1_1_0_0_n_n.lhsIdx_val_of_single rfl j k
/-- Row index of the right operand: the result's column. -/
theorem rhs_tile_0 (j : S1024x128.Idx) (k : dot_S1024x11008_S128x11008_S1024x128_1_1_0_0_n_n.contr.Idx) :
    (dot_S1024x11008_S128x11008_S1024x128_1_1_0_0_n_n.rhsIdx j k 0).val = (j 1).val := by
  unfold DotDims.rhsIdx
  rw [dif_neg (show ¬(0 : Fin S128x11008.rank) ∈ dot_S1024x11008_S128x11008_S1024x128_1_1_0_0_n_n.rhsBatch by decide), dif_pos (show (0 : Fin S128x11008.rank) ∈ dot_S1024x11008_S128x11008_S1024x128_1_1_0_0_n_n.rhsNonContracting by decide)]
  rfl
/-- Column index of the right operand: the contracted coordinate. -/
theorem rhs_tile_1 (j : S1024x128.Idx) (k : dot_S1024x11008_S128x11008_S1024x128_1_1_0_0_n_n.contr.Idx) :
    (dot_S1024x11008_S128x11008_S1024x128_1_1_0_0_n_n.rhsIdx j k 1).val = (k ⟨0, by decide⟩).val :=
  dot_S1024x11008_S128x11008_S1024x128_1_1_0_0_n_n.rhsIdx_val_of_single rfl j k

/-- The matrix product into the zero accumulator at (r, n): both operands are contracted along their 11008 columns, so
    the entry is the sum over i of a[r, i] · b[n, i]. The one-axis contraction index is re-indexed by its coordinate. -/
theorem matmul_tile_apply (a : FVec Ideal S1024x11008 .bf16) (b : FVec Ideal S128x11008 .bf16) (r : Fin 1024) (n : Fin 128) :
    matmul dot_S1024x11008_S128x11008_S1024x128_1_1_0_0_n_n none a b (constant (F := Ideal) S1024x128 .f32 0x00000000#32) (ix2 r n)
      = ∑ i : Fin 11008, a (ix2 r i) * b (ix2 n i) := by
  refine (Ideal.matmul_constant_zero_apply dot_S1024x11008_S128x11008_S1024x128_1_1_0_0_n_n none a b (ix2 r n)).trans ?_
  rw [← Equiv.sum_comp (ValueIdx.contrEquiv1 dot_S1024x11008_S128x11008_S1024x128_1_1_0_0_n_n 11008 rfl rfl).symm]
  refine Finset.sum_congr rfl fun k _ => ?_
  have hk := ValueIdx.contrEquiv1_symm_val dot_S1024x11008_S128x11008_S1024x128_1_1_0_0_n_n 11008 rfl rfl k
  have el : dot_S1024x11008_S128x11008_S1024x128_1_1_0_0_n_n.lhsIdx (ix2 r n) ((ValueIdx.contrEquiv1 dot_S1024x11008_S128x11008_S1024x128_1_1_0_0_n_n 11008 rfl rfl).symm k) = ix2 r k := funext fun c => Fin.ext (by
    match c with
    | ⟨0, _⟩ => exact lhs_tile_0 _ _
    | ⟨1, _⟩ => exact (lhs_tile_1 _ _).trans hk)
  have er : dot_S1024x11008_S128x11008_S1024x128_1_1_0_0_n_n.rhsIdx (ix2 r n) ((ValueIdx.contrEquiv1 dot_S1024x11008_S128x11008_S1024x128_1_1_0_0_n_n 11008 rfl rfl).symm k) = ix2 n k := funext fun c => Fin.ext (by
    match c with
    | ⟨0, _⟩ => exact rhs_tile_0 _ _
    | ⟨1, _⟩ => exact (rhs_tile_1 _ _).trans hk)
  rw [el, er]

/-! ## The stored value -/

/-- The body's stored value at row `r`, column `n` of the tile is the specification's result tile of the loaded blocks. -/
theorem k1_pay1_apply (h : Vec Ideal S1024x11008 .bf16) (q : Vec Ideal S128x11008 .i32) (z : Vec Ideal S128x86 .i32) (s : Vec Ideal S128x86 .f32)
    (r : Fin 1024) (n : Fin 128) :
    k1_pay1 (F := Ideal) h q z s (ix2 r n) = Cert.Spec.tileDown h q z s r n := by
  unfold k1_pay1
  refine (matmul_tile_apply _ _ r n).trans ?_
  unfold Cert.Spec.tileDown
  refine Finset.sum_congr rfl fun i _ => ?_
  -- the hidden block passes through a reshape to its own shape; the weight block is the dequantized one
  rw [shapeCast_self, weight_apply]

end Cert.KernelIdeal.Val

end
-- ==== Proof.Value.Blocks1.lean ====
/-
  From tiles to the array, call 1: grid point (i, j) writes tile (i, j) of the result, the tiles cover it, and each tile is the
  specification's down projection restricted to its rows and columns.
-/
import proofs.«427878_j59425167507992_3_alg».proof.Proof.KernelIdealFrame.Base
import proofs.«427878_j59425167507992_3_alg».proof.Proof.Value.Pay1
import proofs.«427878_j59425167507992_3_alg».proof.Proof.Value.Spec
import Idealize.ShloMosaic.Lib.Pipeline.Value
import Idealize.ShloMosaic.Lib.ValueIdx

set_option maxRecDepth 16384

noncomputable section

open scoped BigOperators

namespace Cert.KernelIdeal.Val

open Idealize.ShloMosaic Idealize.ShloMosaic.ValueIdx
open Cert.KernelIdeal Cert.KernelIdeal.Gen

open Idealize.ShloMosaic.TcCoe Idealize.SL.Sem
open Idealize.ShloMosaic.Pipeline (Dat)

variable (V : (c : Dev nD) → (b : Ref sig .tc) → Buf (Elt Ideal) ((c : Thread nD τ).loc b))

/-- The zero offsets of a whole-buffer rectangle, however spelt. -/
theorem zeroOff : (![0, 0] : Fin 2 → Nat) = fun _ => 0 := funext fun a => by fin_cases a <;> rfl

/-- The index maps over the 2 × 32 grid: the hidden window's block row is the output tile's row index i, each down
    table's block row is the output tile's column index j, every input block starts at column 0, and i ≤ 1, j ≤ 31. -/
theorem tileIdx : ∀ t : Fin cfg1.N,
    win1_0.index t (0 : Fin 2) = win1_4.index t (0 : Fin 2)
    ∧ win1_0.index t (1 : Fin 2) = 0
    ∧ win1_1.index t (0 : Fin 2) = win1_4.index t (1 : Fin 2)
    ∧ win1_1.index t (1 : Fin 2) = 0
    ∧ win1_2.index t (0 : Fin 2) = win1_4.index t (1 : Fin 2)
    ∧ win1_2.index t (1 : Fin 2) = 0
    ∧ win1_3.index t (0 : Fin 2) = win1_4.index t (1 : Fin 2)
    ∧ win1_3.index t (1 : Fin 2) = 0
    ∧ win1_4.index t (0 : Fin 2) ≤ 1
    ∧ win1_4.index t (1 : Fin 2) ≤ 31 :=
  (by decide +kernel : ∀ t : Fin grid1.N, _)

/-- Every tile (i, j) of the 2 × 32 tiling is some grid point's. -/
theorem tileOnto : ∀ (i : Fin 2) (j : Fin 32), ∃ t : Fin cfg1.N, win1_4.index t = ![i.val, j.val] :=
  (by decide +kernel : ∀ (i : Fin 2) (j : Fin 32), ∃ t : Fin grid1.N, win1_4.index t = ![i.val, j.val])

/-- One entry of a tile: when row r of the hidden block is row R of the hidden array and row n of each down block is
    row N of its table, the tile's contraction over the 11008 hidden columns is the array's, term by term. -/
theorem tile_entry (H : S2048x11008.Idx → EReal) (Q : S4096x11008.Idx → BitVec 32) (Z : S4096x86.Idx → BitVec 32)
    (S : S4096x86.Idx → EReal)
    (h : Vec Ideal S1024x11008 .bf16) (q : Vec Ideal S128x11008 .i32) (z : Vec Ideal S128x86 .i32) (s : Vec Ideal S128x86 .f32)
    (r : Fin 1024) (n : Fin 128) (R : Fin 2048) (N : Fin 4096)
    (hh : ∀ i : Fin 11008, h (ix2 r i) = H (ix2 R i))
    (hq : ∀ i : Fin 11008, q (ix2 n i) = Q (ix2 N i))
    (hz : ∀ g : Fin 86, z (ix2 n g) = Z (ix2 N g))
    (hs : ∀ g : Fin 86, s (ix2 n g) = S (ix2 N g)) :
    k1_pay1 (F := Ideal) h q z s (ix2 r n) = Cert.Spec.downAt H Q Z S R N := by
  rw [k1_pay1_apply]
  unfold Cert.Spec.tileDown Cert.Spec.downAt Cert.Spec.wdn
  exact Finset.sum_congr rfl fun i _ => by rw [hh, hq, hz, hs]

/-- The specification's result, of the arrays call 1 is entered with. -/
abbrev downOf (c : Dev nD) : S2048x4096.Idx → EReal :=
  Cert.Spec.down (V c main_v1 : S2048x11008.Idx → EReal) (V c main_arg4 : S4096x11008.Idx → BitVec 32)
    (V c main_arg5 : S4096x86.Idx → BitVec 32) (V c main_arg6 : S4096x86.Idx → EReal)

/-- The hidden block at point t is rows [1024 i, 1024 i + 1024) of the hidden array, all 11008 columns. -/
theorem hidBlk_apply (c : Dev nD) (t : Fin cfg1.N) (r : Fin 1024) (k : Fin 11008) (R : Fin 2048)
    (hR : R.val = win1_4.index t (0 : Fin 2) * 1024 + r.val) :
    (Frame.iblk1 V c 0 t : Vec Ideal S1024x11008 .bf16) (ix2 r k) = (V c main_v1 : S2048x11008.Idx → EReal) (ix2 R k) := by
  obtain ⟨e0, e1, -⟩ := tileIdx t
  unfold Frame.iblk1
  rw [View.read_apply]
  show V c main_v1 _ = V c main_v1 _
  congr 1
  funext a
  apply Fin.ext
  match a with
  | ⟨0, _⟩ => show win1_0.index t (0 : Fin 2) * 1024 + 1 * r.val = R.val; omega
  | ⟨1, _⟩ => show win1_0.index t (1 : Fin 2) * 11008 + 1 * k.val = k.val; omega

/-- The down code block at point t is rows [128 j, 128 j + 128) of the code table. -/
theorem codeBlk_apply (c : Dev nD) (t : Fin cfg1.N) (n : Fin 128) (k : Fin 11008) (N : Fin 4096)
    (hN : N.val = win1_4.index t (1 : Fin 2) * 128 + n.val) :
    (Frame.iblk1 V c 1 t : Vec Ideal S128x11008 .i32) (ix2 n k) = (V c main_arg4 : S4096x11008.Idx → BitVec 32) (ix2 N k) := by
  obtain ⟨-, -, e0, e1, -⟩ := tileIdx t
  unfold Frame.iblk1
  rw [View.read_apply]
  show V c main_arg4 _ = V c main_arg4 _
  congr 1
  funext a
  apply Fin.ext
  match a with
  | ⟨0, _⟩ => show win1_1.index t (0 : Fin 2) * 128 + 1 * n.val = N.val; omega
  | ⟨1, _⟩ => show win1_1.index t (1 : Fin 2) * 11008 + 1 * k.val = k.val; omega

/-- The zero-point block at point t is rows [128 j, 128 j + 128) of the zero-point table. -/
theorem zeroBlk_apply (c : Dev nD) (t : Fin cfg1.N) (n : Fin 128) (g : Fin 86) (N : Fin 4096)
    (hN : N.val = win1_4.index t (1 : Fin 2) * 128 + n.val) :
    (Frame.iblk1 V c 2 t : Vec Ideal S128x86 .i32) (ix2 n g) = (V c main_arg5 : S4096x86.Idx → BitVec 32) (ix2 N g) := by
  obtain ⟨-, -, -, -, e0, e1, -⟩ := tileIdx t
  unfold Frame.iblk1
  rw [View.read_apply]
  show V c main_arg5 _ = V c main_arg5 _
  congr 1
  funext a
  apply Fin.ext
  match a with
  | ⟨0, _⟩ => show win1_2.index t (0 : Fin 2) * 128 + 1 * n.val = N.val; omega
  | ⟨1, _⟩ => show win1_2.index t (1 : Fin 2) * 86 + 1 * g.val = g.val; omega

/-- The scale block at point t is rows [128 j, 128 j + 128) of the scale table. -/
theorem scaleBlk_apply (c : Dev nD) (t : Fin cfg1.N) (n : Fin 128) (g : Fin 86) (N : Fin 4096)
    (hN : N.val = win1_4.index t (1 : Fin 2) * 128 + n.val) :
    (Frame.iblk1 V c 3 t : Vec Ideal S128x86 .f32) (ix2 n g) = (V c main_arg6 : S4096x86.Idx → EReal) (ix2 N g) := by
  obtain ⟨-, -, -, -, -, -, e0, e1, -⟩ := tileIdx t
  unfold Frame.iblk1
  rw [View.read_apply]
  show V c main_arg6 _ = V c main_arg6 _
  congr 1
  funext a
  apply Fin.ext
  match a with
  | ⟨0, _⟩ => show win1_3.index t (0 : Fin 2) * 128 + 1 * n.val = N.val; omega
  | ⟨1, _⟩ => show win1_3.index t (1 : Fin 2) * 86 + 1 * g.val = g.val; omega

/-- What point t writes back is tile t of the specification's result: entry (r, n) of the tile is the contraction of hidden
    row 1024 i + r with down row 128 j + n, and the output's rectangle places it at exactly that row and column. -/
theorem flushed1_eq (c : Dev nD) (t : Fin cfg1.N) :
    (Frame.dat1 V c).flushed 4 t = ((cfg1.win 4).blk t).view.read (Elt Ideal) (downOf V c) := by
  show (cfg1.win 4).cut (grid1.coords t) ((Frame.dat1 V c).after 4 t) = _
  rw [Frame.after1_4]
  unfold Frame.out1_4
  rw [View.canon_unit_zero zeroOff]
  simp only [View.ld_unit_zero (S := S1024x11008) zeroOff, View.ld_unit_zero (S := S128x11008) zeroOff,
    View.ld_unit_zero (S := S128x86) zeroOff]
  obtain ⟨-, -, -, -, -, -, -, -, b0, b1⟩ := tileIdx t
  funext j
  obtain ⟨r, n, rfl⟩ : ∃ (r : Fin 1024) (n : Fin 128), j = ix2 r n := ⟨j 0, j 1, eq_ix2 j⟩
  have hr : r.val < 1024 := r.isLt
  have hn : n.val < 128 := n.isLt
  show k1_pay1 (F := Ideal) (Frame.iblk1 V c 0 t) (Frame.iblk1 V c 1 t) (Frame.iblk1 V c 2 t) (Frame.iblk1 V c 3 t) (ix2 r n)
      = downOf V c (((cfg1.win 4).blk t).view.emb (ix2 r n))
  have eR : ((((cfg1.win 4).blk t).view.emb (ix2 r n) : S2048x4096.Idx) 0).val = win1_4.index t (0 : Fin 2) * 1024 + r.val := by
    show win1_4.index t (0 : Fin 2) * 1024 + 1 * r.val = _; omega
  have eN : ((((cfg1.win 4).blk t).view.emb (ix2 r n) : S2048x4096.Idx) 1).val = win1_4.index t (1 : Fin 2) * 128 + n.val := by
    show win1_4.index t (1 : Fin 2) * 128 + 1 * n.val = _; omega
  exact tile_entry _ _ _ _ (Frame.iblk1 V c 0 t) (Frame.iblk1 V c 1 t) (Frame.iblk1 V c 2 t) (Frame.iblk1 V c 3 t) r n _ _
    (fun k => hidBlk_apply V c t r k _ eR) (fun k => codeBlk_apply V c t n k _ eN)
    (fun g => zeroBlk_apply V c t n g _ eN) (fun g => scaleBlk_apply V c t n g _ eN)

/-- An entry of the result is in tile t iff its row and its column are in the tile's ranges. -/
theorem mem_tile (t : Fin cfg1.N) (i : S2048x4096.Idx) :
    i ∈ ((cfg1.win 4).blk t).view.set ↔ ∀ a : Fin 2, win1_4.index t a * S1024x128.size a ≤ (i a).val ∧ (i a).val < win1_4.index t a * S1024x128.size a + S1024x128.size a := by
  show i ∈ ((View.whole main_v2).slice (win1_4.rect t)).set ↔ _
  rw [View.set_slice_whole, Rect.mem_set_unit]
  exact Iff.rfl

/-- The tiles cover the result: entry (ρ, γ) is in the tile of point (ρ / 1024, γ / 128). -/
theorem tiles_cover (i : S2048x4096.Idx) :
    ∃ t : Fin cfg1.N, (cfg1.win 4).flush t = true ∧ i ∈ ((cfg1.win 4).blk t).view.set := by
  have hi0 : (i 0).val < 2048 := (i 0).isLt
  have hi1 : (i 1).val < 4096 := (i 1).isLt
  obtain ⟨t, ht⟩ := tileOnto ⟨(i 0).val / 1024, by omega⟩ ⟨(i 1).val / 128, by omega⟩
  have q0 : win1_4.index t (0 : Fin 2) = (i 0).val / 1024 := congrFun ht 0
  have q1 : win1_4.index t (1 : Fin 2) = (i 1).val / 128 := congrFun ht 1
  refine ⟨t, flush1_4 t, ?_⟩
  rw [mem_tile]
  intro a
  match a with
  | ⟨0, _⟩ => show win1_4.index t (0 : Fin 2) * 1024 ≤ (i 0).val ∧ (i 0).val < win1_4.index t (0 : Fin 2) * 1024 + 1024; omega
  | ⟨1, _⟩ => show win1_4.index t (1 : Fin 2) * 128 ≤ (i 1).val ∧ (i 1).val < win1_4.index t (1 : Fin 2) * 128 + 128; omega

/-- After call 1 its output array holds the specification's down projection of the arrays the region was entered with. -/
theorem final1 (c : Dev nD) :
    ((Cert.KernelIdeal.Frame.dat1 V c).arrAt 4 cfg1.N : S2048x4096.Idx → EReal)
      = Cert.Spec.down (V c main_v1 : S2048x11008.Idx → EReal) (V c main_arg4 : S4096x11008.Idx → BitVec 32)
          (V c main_arg5 : S4096x86.Idx → BitVec 32) (V c main_arg6 : S4096x86.Idx → EReal) :=
  (Frame.dat1 V c).arrAt_eq_of_cover 4 (downOf V c) (fun t _ => flushed1_eq V c t) (tiles_cover)

end Cert.KernelIdeal.Val

end
-- ==== Proof.Value.KernelValue.lean ====
/-
  The idealized kernel's result. The last valuation of the run holds, at the result buffer, what call 1's write-backs leave:
  the down projection of the buffers call 1 was entered with; of those the hidden array is what call 0's write-backs left,
  the hidden activation of the buffers call 0 was entered with; and those are the launch memory's arguments, x with its
  unit axis dropped by the host reshape. So the run ends with the result array at the specification of the launch memory.
-/
import proofs.«427878_j59425167507992_3_alg».proof.Proof.KernelIdealFrame.Run
import proofs.«427878_j59425167507992_3_alg».proof.Proof.Value.Blocks0
import proofs.«427878_j59425167507992_3_alg».proof.Proof.Value.Blocks1
import Idealize.ShloMosaic.Lib.StableHlo.Run

set_option maxRecDepth 16384

noncomputable section

namespace Cert.KernelIdeal.Val

open Idealize.ShloMosaic Idealize.ShloMosaic.TcCoe Idealize.ShloMosaic.ValueIdx
open Idealize.SL.Sem Idealize.ShloMosaic.StableHlo
open Cert.KernelIdeal Cert.KernelIdeal.Gen Cert.KernelIdeal.Frame

variable (m : (ℓ : Loc nD τ sig) → Buf (Elt Ideal) ℓ) (ρ : Dev nD → PrngReg)

/-- The specification at the launch memory of core `c`. -/
def kernelResult (c : Dev nD) : S2048x4096.Idx → EReal :=
  Cert.Spec.down
    (Cert.Spec.hid (shapeCast S2048x4096 (m ((c : Thread nD τ).loc main_arg0)) shapeCasts_S1x2048x4096_S2048x4096)
      (m ((c : Thread nD τ).loc main_arg1)) (m ((c : Thread nD τ).loc main_arg2)) (m ((c : Thread nD τ).loc main_arg3)))
    (m ((c : Thread nD τ).loc main_arg4)) (m ((c : Thread nD τ).loc main_arg5)) (m ((c : Thread nD τ).loc main_arg6))

/-- What the host reshape leaves call 0: x with its unit axis dropped. -/
theorem V1_main_v0 (c : Dev nD) :
    (Frame.V1 (F := Ideal) m c main_v0 : S2048x4096.Idx → EReal)
      = shapeCast S2048x4096 (m ((c : Thread nD τ).loc main_arg0)) shapeCasts_S1x2048x4096_S2048x4096 := by
  dsimp only [Frame.V1, W1, W0, hostOps0]
  after_results
  rfl

/-- No segment before a call writes an argument: both calls find the launch memory's tables. -/
theorem V1_arg (c : Dev nD) (r : Ref sig .tc) (h : r ∉ hostOps0_W) : Frame.V1 (F := Ideal) m c r = m ((c : Thread nD τ).loc r) :=
  W1_of m c r h
theorem V2_arg (c : Dev nD) (r : Ref sig .tc) (hne : r ≠ main_v1) (h : r ∉ hostOps0_W) : Frame.V2 (F := Ideal) m c r = m ((c : Thread nD τ).loc r) :=
  (W2_of_ne m c r hne).trans (W1_of m c r h)

/-- The last valuation at the result buffer is the specification at the launch memory. -/
theorem W4_main_v2 (c : Dev nD) : (W4 (F := Ideal) m c (Proc.devRef .tc main_v2) : S2048x4096.Idx → EReal) = kernelResult m c := by
  refine (W4_arr (F := Ideal) m c 4).trans ?_
  refine (final1 (Frame.V2 m) c).trans ?_
  have e1 : (Frame.V2 (F := Ideal) m c main_v1 : S2048x11008.Idx → EReal)
      = Cert.Spec.hid (Frame.V1 m c main_v0 : S2048x4096.Idx → EReal) (Frame.V1 m c main_arg1 : S22016x4096.Idx → BitVec 32)
          (Frame.V1 m c main_arg2 : S22016x32.Idx → BitVec 32) (Frame.V1 m c main_arg3 : S22016x32.Idx → EReal) :=
    (W2_main_v1 m c).trans (final0 (Frame.V1 m) c)
  unfold kernelResult
  rw [e1, V1_main_v0 m c, V1_arg m c main_arg1 (by decide), V1_arg m c main_arg2 (by decide), V1_arg m c main_arg3 (by decide),
    V2_arg m c main_arg4 (by decide) (by decide), V2_arg m c main_arg5 (by decide) (by decide), V2_arg m c main_arg6 (by decide) (by decide)]

/-- THE VALUE RUN: every weakly fair execution of the idealized kernel terminates with the result array at the specification
    of the launch memory and every argument as launched. -/
theorem run_value : θ_run (defs (F := Ideal)) (onTc (τ := τ) (main (F := Ideal))) ⟨m, fun _ => 0, ρ⟩ (fun r => ∀ c : Dev nD,
      r.2.mem ((c.tc : Thread nD τ).loc main_v2) = kernelResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v2 (by decide))).trans (W4_main_v2 m c),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c)⟩) (run_all m ρ)

end Cert.KernelIdeal.Val

end
-- ==== Proof.Value.Ref.lean ====
/-
  The reference at the ideal instance is the specification: its host program dequantizes both tables whole, contracts x with the
  packed first weight, slices the gate and the up half, applies x · (1 / (1 + e^(−x))) to the gate half, multiplies, and contracts
  with the down weight — entry by entry the two-stage function of Value/Spec.lean.
-/
import proofs.«427878_j59425167507992_3_alg».proof.Proof.Gen.ReferenceIdeal.Run
import proofs.«427878_j59425167507992_3_alg».proof.Proof.Gen.ReferenceIdeal.Read
import proofs.«427878_j59425167507992_3_alg».proof.Proof.Value.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.ReferenceIdeal.RefValue

open Idealize.ShloMosaic Idealize.ShloMosaic.ValueIdx
open Cert.ReferenceIdeal Cert.ReferenceIdeal.Gen

open Cert.ReferenceIdeal.Read

/-! ## Columns in groups of 128 -/

/-- The place of column `d` inside its group of 128 columns. -/
def lane32 (d : Fin 4096) : Fin 128 := ⟨d.val % 128, Nat.mod_lt _ (by decide)⟩
/-- The same for the down table's 11008 columns. -/
def lane86 (d : Fin 11008) : Fin 128 := ⟨d.val % 128, Nat.mod_lt _ (by decide)⟩

/-! ## The packed first weight, entry by entry

Entry (o, d) of the reshaped product sits at (o, d / 128, d % 128) of the three-axis arrays; there the code is the table's
entry (o, d), and the broadcast zero point and scale are the group's entries (o, d / 128). -/

/-- Flattening [22016, 32, 128] → [22016, 4096]: entry (o, d) is read at (o, d / 128, d % 128). -/
theorem flat_gu (o : Fin 22016) (d : Fin 4096) :
    idx_main_v10 (ix2 o d) = ix3 o (Spec.g32 d) (lane32 d) :=
  funext fun a => Fin.ext (by
    have ho := o.isLt; have hd := d.isLt
    match a with
    | ⟨0, _⟩ => show (o.val * 4096 + d.val) / 4096 = o.val; omega
    | ⟨1, _⟩ => show (o.val * 4096 + d.val) / 128 % 32 = d.val / 128; omega
    | ⟨2, _⟩ => show (o.val * 4096 + d.val) % 128 = d.val % 128; omega)

/-- Grouping [22016, 4096] → [22016, 32, 128]: entry (o, d / 128, d % 128) is the table's entry (o, d). -/
theorem group_gu (o : Fin 22016) (d : Fin 4096) :
    idx_main_v1 (ix3 o (Spec.g32 d) (lane32 d)) = ix2 o d :=
  funext fun a => Fin.ext (by
    have ho := o.isLt; have hd := d.isLt
    match a with
    | ⟨0, _⟩ => show ((o.val * 32 + d.val / 128) * 128 + d.val % 128) / 4096 = o.val; omega
    | ⟨1, _⟩ => show ((o.val * 32 + d.val / 128) * 128 + d.val % 128) % 4096 = d.val; omega)

/-- Broadcasting along the 128 columns of a group forgets the column. -/
theorem lanes_gu (o : Fin 22016) (g : Fin 32) (l : Fin 128) :
    idx_main_v5 (ix3 o g l) = ix3 o g (0 : Fin 1) :=
  funext fun a => Fin.ext (by
    match a with
    | ⟨0, _⟩ => rfl
    | ⟨1, _⟩ => rfl
    | ⟨2, _⟩ => rfl)

/-- The unit axis appended to the group tables carries nothing. -/
theorem unit_gu (o : Fin 22016) (g : Fin 32) (u : Fin 1) :
    idx_main_v3 (ix3 o g u) = ix2 o g :=
  funext fun a => Fin.ext (by
    match a with
    | ⟨0, _⟩ => rfl
    | ⟨1, _⟩ => rfl)

/-- Entry (o, d) of the dequantized first table is the specification's weight. -/
theorem wgu_eq (x1 : (⟨S22016x4096, .i32⟩ : BufTy).Contents (Elt Ideal)) (x2 : (⟨S22016x32, .i32⟩ : BufTy).Contents (Elt Ideal))
    (x3 : (⟨S22016x32, .f32⟩ : BufTy).Contents (Elt Ideal)) (o : Fin 22016) (d : Fin 4096) :
    val_main_v10 (F := Ideal) x1 x2 x3 (ix2 o d) = Spec.wgu x1 x2 x3 o d := by
  rw [val_main_v10_apply, flat_gu, val_main_v9_apply, val_main_v6_apply, val_main_v2_apply, val_main_v1_apply, group_gu,
    val_main_v5_apply, lanes_gu, val_main_v4_apply, val_main_v3_apply, unit_gu,
    val_main_v8_apply, show idx_main_v8 (ix3 o (Spec.g32 d) (lane32 d)) = ix3 o (Spec.g32 d) (0 : Fin 1) from lanes_gu o _ _,
    val_main_v7_apply, show idx_main_v7 (ix3 o (Spec.g32 d) (0 : Fin 1)) = ix2 o (Spec.g32 d) from unit_gu o _ _]
  rfl

/-! ## The down weight, entry by entry -/

/-- Flattening [4096, 86, 128] → [4096, 11008]: entry (n, i) is read at (n, i / 128, i % 128). -/
theorem flat_dn (n : Fin 4096) (i : Fin 11008) :
    idx_main_v25 (ix2 n i) = ix3 n (Spec.g86 i) (lane86 i) :=
  funext fun a => Fin.ext (by
    have hn := n.isLt; have hi := i.isLt
    match a with
    | ⟨0, _⟩ => show (n.val * 11008 + i.val) / 11008 = n.val; omega
    | ⟨1, _⟩ => show (n.val * 11008 + i.val) / 128 % 86 = i.val / 128; omega
    | ⟨2, _⟩ => show (n.val * 11008 + i.val) % 128 = i.val % 128; omega)

/-- Grouping [4096, 11008] → [4096, 86, 128]: entry (n, i / 128, i % 128) is the table's entry (n, i). -/
theorem group_dn (n : Fin 4096) (i : Fin 11008) :
    idx_main_v16 (ix3 n (Spec.g86 i) (lane86 i)) = ix2 n i :=
  funext fun a => Fin.ext (by
    have hn := n.isLt; have hi := i.isLt
    match a with
    | ⟨0, _⟩ => show ((n.val * 86 + i.val / 128) * 128 + i.val % 128) / 11008 = n.val; omega
    | ⟨1, _⟩ => show ((n.val * 86 + i.val / 128) * 128 + i.val % 128) % 11008 = i.val; omega)

theorem lanes_dn (n : Fin 4096) (g : Fin 86) (l : Fin 128) :
    idx_main_v20 (ix3 n g l) = ix3 n g (0 : Fin 1) :=
  funext fun a => Fin.ext (by
    match a with
    | ⟨0, _⟩ => rfl
    | ⟨1, _⟩ => rfl
    | ⟨2, _⟩ => rfl)

theorem unit_dn (n : Fin 4096) (g : Fin 86) (u : Fin 1) :
    idx_main_v18 (ix3 n g u) = ix2 n g :=
  funext fun a => Fin.ext (by
    match a with
    | ⟨0, _⟩ => rfl
    | ⟨1, _⟩ => rfl)

/-- Entry (n, i) of the dequantized down table is the specification's weight. -/
theorem wdn_eq (x4 : (⟨S4096x11008, .i32⟩ : BufTy).Contents (Elt Ideal)) (x5 : (⟨S4096x86, .i32⟩ : BufTy).Contents (Elt Ideal))
    (x6 : (⟨S4096x86, .f32⟩ : BufTy).Contents (Elt Ideal)) (n : Fin 4096) (i : Fin 11008) :
    val_main_v25 (F := Ideal) x4 x5 x6 (ix2 n i) = Spec.wdn x4 x5 x6 n i := by
  rw [val_main_v25_apply, flat_dn, val_main_v24_apply, val_main_v21_apply, val_main_v17_apply, val_main_v16_apply, group_dn,
    val_main_v20_apply, lanes_dn, val_main_v19_apply, val_main_v18_apply, unit_dn,
    val_main_v23_apply, show idx_main_v23 (ix3 n (Spec.g86 i) (lane86 i)) = ix3 n (Spec.g86 i) (0 : Fin 1) from lanes_dn n _ _,
    val_main_v22_apply, show idx_main_v22 (ix3 n (Spec.g86 i) (0 : Fin 1)) = ix2 n (Spec.g86 i) from unit_dn n _ _]
  rfl

/-! ## The first contraction and its two halves -/

/-- Row r of x against row o of the dequantized first table is the specification's projection. -/
theorem proj_eq (x0 : (⟨S1x2048x4096, .f32⟩ : BufTy).Contents (Elt Ideal)) (x1 : (⟨S22016x4096, .i32⟩ : BufTy).Contents (Elt Ideal))
    (x2 : (⟨S22016x32, .i32⟩ : BufTy).Contents (Elt Ideal)) (x3 : (⟨S22016x32, .f32⟩ : BufTy).Contents (Elt Ideal))
    (r : Fin 2048) (o : Fin 22016) :
    val_main_v11 (F := Ideal) x0 x1 x2 x3 (ix2 r o) = Spec.proj (val_main_v0 (F := Ideal) x0) x1 x2 x3 r o := by
  rw [val_main_v11_apply]
  unfold Spec.proj
  refine Finset.sum_congr rfl fun k _ => ?_
  have el : lidx_main_v11 (ix2 r o) k = ix2 r k := funext fun a => Fin.ext (by
    match a with
    | ⟨0, _⟩ => rfl
    | ⟨1, _⟩ => rfl)
  have er : ridx_main_v11 (ix2 r o) k = ix2 o k := funext fun a => Fin.ext (by
    match a with
    | ⟨0, _⟩ => rfl
    | ⟨1, _⟩ => rfl)
  rw [el, er, wgu_eq]

/-- The first slice keeps columns [0, 11008): hidden column o reads the gate row o. -/
theorem gate_idx (r : Fin 2048) (o : Fin 11008) : idx_main_v12 (ix2 r o) = ix2 r (Spec.gateRow o) :=
  funext fun a => Fin.ext (by
    match a with
    | ⟨0, _⟩ => rfl
    | ⟨1, _⟩ => rfl)

/-- The second slice keeps columns [11008, 22016): hidden column o reads the up row o + 11008. -/
theorem up_idx (r : Fin 2048) (o : Fin 11008) : idx_main_v13 (ix2 r o) = ix2 r (Spec.upRow o) :=
  funext fun a => Fin.ext (by
    match a with
    | ⟨0, _⟩ => rfl
    | ⟨1, _⟩ => show 11008 + o.val = o.val + 11008; omega)

/-- The word 0x3F800000 is the float 1. -/
theorem one_word : Ideal.ofBits .f32 0x3F800000#32 = 1 := IdealRules.sign_bit.ideal_onePat .f32

/-- a · (1 / (1 + e^(−a))) is a times the logistic function of a. -/
theorem silu_eq (a : EReal) :
    a * Ideal.div (Ideal.ofBits .f32 0x3F800000#32) (Ideal.ofBits .f32 0x3F800000#32 + Ideal.exp (-a)) = a * Ideal.logistic a := by
  rw [one_word]; rfl

/-- Entry (r, o) of the hidden activation: silu of the gate projection times the up projection. -/
theorem hid_eq (x0 : (⟨S1x2048x4096, .f32⟩ : BufTy).Contents (Elt Ideal)) (x1 : (⟨S22016x4096, .i32⟩ : BufTy).Contents (Elt Ideal))
    (x2 : (⟨S22016x32, .i32⟩ : BufTy).Contents (Elt Ideal)) (x3 : (⟨S22016x32, .f32⟩ : BufTy).Contents (Elt Ideal))
    (r : Fin 2048) (o : Fin 11008) :
    val_main_v15 (F := Ideal) x0 x1 x2 x3 (ix2 r o) = Spec.hidAt (val_main_v0 (F := Ideal) x0) x1 x2 x3 r o := by
  rw [val_main_v15_apply, val_main_v14_apply, val_main_call0_v5_apply, val_main_call0_v4_apply, val_main_call0_cst_0_apply,
    val_main_call0_v3_apply, val_main_call0_v2_apply, val_main_call0_cst_apply, val_main_call0_v1_apply, val_main_call0_v0_apply,
    val_main_v12_apply, val_main_v13_apply, gate_idx, up_idx, proj_eq, proj_eq]
  simp only [Ideal.mulf_def, Ideal.addf_def, Ideal.hostDivf_def, Ideal.hostUnary_exp_def, Ideal.hostNegf_def, Ideal.negf_def,
    Ideal.ofBits_def]
  unfold Spec.hidAt
  rw [silu_eq]

/-- The reference's result, as its read-back names it stage by stage, is the specification's down projection of the
    specification's hidden activation of the reshaped x. -/
theorem ref_eq (x0 : (⟨S1x2048x4096, .f32⟩ : BufTy).Contents (Elt Ideal)) (x1 : (⟨S22016x4096, .i32⟩ : BufTy).Contents (Elt Ideal))
    (x2 : (⟨S22016x32, .i32⟩ : BufTy).Contents (Elt Ideal)) (x3 : (⟨S22016x32, .f32⟩ : BufTy).Contents (Elt Ideal))
    (x4 : (⟨S4096x11008, .i32⟩ : BufTy).Contents (Elt Ideal)) (x5 : (⟨S4096x86, .i32⟩ : BufTy).Contents (Elt Ideal))
    (x6 : (⟨S4096x86, .f32⟩ : BufTy).Contents (Elt Ideal)) :
    Cert.ReferenceIdeal.Read.val_main_v26 (F := Ideal) x0 x1 x2 x3 x4 x5 x6
      = Cert.Spec.down (Cert.Spec.hid (Cert.ReferenceIdeal.Read.val_main_v0 (F := Ideal) x0) x1 x2 x3) x4 x5 x6 := by
  funext j
  obtain ⟨r, n, rfl⟩ : ∃ (r : Fin 2048) (n : Fin 4096), j = ix2 r n := ⟨j 0, j 1, eq_ix2 j⟩
  rw [val_main_v26_apply]
  show _ = Spec.downAt (Spec.hid (val_main_v0 (F := Ideal) x0) x1 x2 x3) x4 x5 x6 r n
  unfold Spec.downAt
  refine Finset.sum_congr rfl fun k _ => ?_
  have el : lidx_main_v26 (ix2 r n) k = ix2 r k := funext fun a => Fin.ext (by
    match a with
    | ⟨0, _⟩ => rfl
    | ⟨1, _⟩ => rfl)
  have er : ridx_main_v26 (ix2 r n) k = ix2 n k := funext fun a => Fin.ext (by
    match a with
    | ⟨0, _⟩ => rfl
    | ⟨1, _⟩ => rfl)
  rw [el, er, hid_eq, wdn_eq]
  rfl

end Cert.ReferenceIdeal.RefValue

end
-- ==== Proof.lean ====
/-
  The quantized MLP kernel against its jnp reference.

  Both programs compute, entry by entry over the extended reals, the same two-stage function of the seven argument arrays
  (Proof/Value/Spec.lean): every weight is (code − zero point) · scale with one zero point and scale per group of 128 input
  columns; hidden[r, o] = silu (x[r, ·] · w_gate[o, ·]) · (x[r, ·] · w_up[o, ·]) with silu a = a · (1 / (1 + e^(−a)));
  result[r, n] = hidden[r, ·] · w_down[n, ·]. The kernel computes it tile by tile in two pallas_calls, the reference on whole
  arrays; at the ideal instance the integer-to-float conversions are exact in any format, format changes are the identity,
  the kernel's logistic IS 1 / (1 + e^(−a)), and every sum has the same terms in the same order of factors, so the two
  results are equal with no law that would need the inputs finite.

  The frames: each kernel program runs as three segments (one host reshape, call 0, call 1), no segment writes an argument;
  the reference is a straight line of host operations.
-/
import proofs.«427878_j59425167507992_3_alg».proof.Defs
import proofs.«427878_j59425167507992_3_alg».proof.Proof.Gen.Kernel
import proofs.«427878_j59425167507992_3_alg».proof.Proof.Gen.KernelIdeal
import proofs.«427878_j59425167507992_3_alg».proof.Proof.Gen.ReferenceIdeal
import proofs.«427878_j59425167507992_3_alg».proof.Proof.Gen.Pre_finite_inputs
import proofs.«427878_j59425167507992_3_alg».proof.Proof.Gen.ReferenceIdeal.Run
import proofs.«427878_j59425167507992_3_alg».proof.Proof.Gen.ReferenceIdeal.Read
import proofs.«427878_j59425167507992_3_alg».proof.Proof.KernelFrame.Run
import proofs.«427878_j59425167507992_3_alg».proof.Proof.KernelIdealFrame.Run
import proofs.«427878_j59425167507992_3_alg».proof.Proof.Value.KernelValue
import proofs.«427878_j59425167507992_3_alg».proof.Proof.Value.Ref

noncomputable section

namespace Cert.Proof

open Idealize.ShloMosaic Idealize.SL.Sem

/-- The word-level kernel runs and leaves its arguments as launched. -/
theorem frame_kernel : Cert.frame_Kernel := fun m ρ _ => Cert.Kernel.Frame.frame (F := Bits) m ρ

/-- So does its idealization. -/
theorem frame_kernelIdeal : Cert.frame_KernelIdeal := fun m ρ _ => Cert.KernelIdeal.Frame.frame (F := Ideal) m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The specification at the kernel's launch memory is the reference's read-back of the same arrays: the kernel's host
    reshape of x and the reference's are one operation. -/
theorem kernelResult_eq_ref (m : (ℓ : Loc Cert.KernelIdeal.nD Cert.KernelIdeal.τ Cert.KernelIdeal.sig) → Buf (Elt Ideal) ℓ)
    (c : Dev Cert.KernelIdeal.nD) :
    Cert.ReferenceIdeal.Read.val_main_v26 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
      = Cert.KernelIdeal.Val.kernelResult m c :=
  Cert.ReferenceIdeal.RefValue.ref_eq _ _ _ _ _ _ _

/-- At the ideal instance both programs end with the specification of the arguments they agree on. -/
theorem algebraic : Cert.algebraic_KernelIdeal_ReferenceIdeal := by
  intro m ρ m' ρ' _ hagree
  refine ⟨_, Cert.KernelIdeal.Val.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [h0, h1, h2, h3, h4, h5, h6]
  exact (Cert.ReferenceIdeal.Read.val_main_v26_eq _ _ _ _ _ _ _).trans (kernelResult_eq_ref m c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
